-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x32000000 : Shape := ⟨2, ![2, 32000000]⟩
abbrev S2x8 : Shape := ⟨2, ![2, 8]⟩
abbrev S8 : Shape := ⟨1, ![8]⟩
abbrev S8x1 : Shape := ⟨2, ![8, 1]⟩
abbrev S1 : Shape := ⟨1, ![1]⟩
abbrev S_ : Shape := ⟨0, ![]⟩
abbrev S1x32000000 : Shape := ⟨2, ![1, 32000000]⟩
abbrev S32000000 : Shape := ⟨1, ![32000000]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  slices_S2x32000000_S1x32000000_0_0 : S2x32000000.Slices ![0, 0] S1x32000000
  shapeCasts_S1x32000000_S32000000 : S1x32000000.ShapeCasts S32000000
  bcast_S_S32000000 : S_.BroadcastsInDim S32000000 (![] : Fin 0 → Fin S32000000.rank)
  reducesTo_S32000000_S_d0 : S32000000.ReducesTo [0] S_

variable [Facts]

def fn_part1 {F : FTy → Type} [FloatOps F] (main_arg1 : IVec S2x32000000 32) (main_arg5 : FVec F S1 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : IVec S1x32000000 32 := (extractStridedSlice S1x32000000 ![0, 0] · slices_S2x32000000_S1x32000000_0_0) main_arg1
  let main_v25 : IVec S32000000 32 := shapeCast S32000000 main_v24 shapeCasts_S1x32000000_S32000000
  let main_c_8 : IVec S_ 32 := constantI S_ 32 0#32
  let main_v26 : IVec S32000000 32 := broadcastInDim S32000000 ![] bcast_S_S32000000 main_c_8
  let main_v27 : IVec S32000000 1 := cmpi .sge main_v25 main_v26
  let main_v28 : IVec S1x32000000 32 := (extractStridedSlice S1x32000000 ![0, 0] · slices_S2x32000000_S1x32000000_0_0) main_arg1
  let main_v29 : IVec S32000000 32 := shapeCast S32000000 main_v28 shapeCasts_S1x32000000_S32000000
  let main_c_9 : IVec S_ 32 := constantI S_ 32 1000000#32
  let main_v30 : IVec S32000000 32 := broadcastInDim S32000000 ![] bcast_S_S32000000 main_c_9
  let main_v31 : IVec S32000000 1 := cmpi .slt main_v29 main_v30
  let main_v32 : IVec S32000000 1 := andi main_v27 main_v31
  let main_c_10 : IVec S_ 1 := constantI S_ 1 1#1
  let main_v33 : IVec S_ 1 := (fun x v => Host.reduce IntOp.andi x v reducesTo_S32000000_S_d0 h_S_) main_v32 main_c_10
  let main_v34 : IVec S_ 1 := andi main_v23 main_v33
  main_v34

def fn {F : FTy → Type} [FloatOps F] (main_arg0 : FVec F S1000000x2 .f32) (main_arg1 : IVec S2x32000000 32) (main_arg2 : FVec F S2x8 .f32) (main_arg3 : FVec F S8 .f32) (main_arg4 : FVec F S8x1 .f32) (main_arg5 : FVec F S1 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x8 .f32 := Host.absf main_arg2
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x1 .f32 := Host.absf main_arg4
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg1 main_arg5 main_v13 main_v16
-- ==== Kernel.lean ====
abbrev S1000000x2 : Shape := ⟨2, ![1000000, 2]⟩
abbrev S2x32000000 : Shape := ⟨2, ![2, 32000000]⟩
abbrev S2x8 : Shape := ⟨2, ![2, 8]⟩
abbrev S8 : Shape := ⟨1, ![8]⟩
abbrev S8x1 : Shape := ⟨2, ![8, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S1000000x1 : Shape := ⟨2, ![1000000, 1]⟩
abbrev S1x1 : Shape := ⟨2, ![1, 1]⟩
abbrev S33000000x2 : Shape := ⟨2, ![33000000, 2]⟩
abbrev S1x8 : Shape := ⟨2, ![1, 8]⟩
abbrev S5000x2 : Shape := ⟨2, ![5000, 2]⟩
abbrev S5000x1 : Shape := ⟨2, ![5000, 1]⟩
abbrev S5000x8 : Shape := ⟨2, ![5000, 8]⟩

abbrev nBuf : Space → Nat
  | .hbm => 91
  | .vmem => 16
  | .smem => 0
  | _ => 0

abbrev bufTy : (tb : Table) → Fin (tcTables nBuf tb) → BufTy
  | .hbm, ⟨0, _⟩ => ⟨S1000000x2, .f32⟩
  | .hbm, ⟨1, _⟩ => ⟨S2x32000000, .i32⟩
  | .hbm, ⟨2, _⟩ => ⟨S2x8, .f32⟩
  | .hbm, ⟨3, _⟩ => ⟨S8, .f32⟩
  | .hbm, ⟨4, _⟩ => ⟨S8x1, .f32⟩
  | .hbm, ⟨5, _⟩ => ⟨S1, .f32⟩
  | .hbm, ⟨6, _⟩ => ⟨S1000000, .i32⟩
  | .hbm, ⟨7, _⟩ => ⟨S1x32000000, .i32⟩
  | .hbm, ⟨8, _⟩ => ⟨S32000000, .i32⟩
  | .hbm, ⟨9, _⟩ => ⟨S33000000, .i32⟩
  | .hbm, ⟨10, _⟩ => ⟨S1x32000000, .i32⟩
  | .hbm, ⟨11, _⟩ => ⟨S32000000, .i32⟩
  | .hbm, ⟨12, _⟩ => ⟨S33000000, .i32⟩
  | .hbm, ⟨13, _⟩ => ⟨S_, .f32⟩
  | .hbm, ⟨14, _⟩ => ⟨S33000000, .f32⟩
  | .hbm, ⟨15, _⟩ => ⟨S_, .f32⟩
  | .hbm, ⟨16, _⟩ => ⟨S1000000, .f32⟩
  | .hbm, ⟨17, _⟩ => ⟨S33000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S1000000x1, .f32⟩
  | .hbm, ⟨31, _⟩ => ⟨S1000000x2, .f32⟩
  | .hbm, ⟨32, _⟩ => ⟨S1000000x2, .f32⟩
  | .hbm, ⟨33, _⟩ => ⟨S_, .i32⟩
  | .hbm, ⟨34, _⟩ => ⟨S33000000, .i32⟩
  | .hbm, ⟨35, _⟩ => ⟨S33000000, .i1⟩
  | .hbm, ⟨36, _⟩ => ⟨S_, .i32⟩
  | .hbm, ⟨37, _⟩ => ⟨S33000000, .i32⟩
  | .hbm, ⟨38, _⟩ => ⟨S33000000, .i32⟩
  | .hbm, ⟨39, _⟩ => ⟨S33000000, .i32⟩
  | .hbm, ⟨40, _⟩ => ⟨S33000000x1, .i32⟩
  | .hbm, ⟨41, _⟩ => ⟨S1, .i32⟩
  | .hbm, ⟨42, _⟩ => ⟨S_, .i32⟩
  | .hbm, ⟨43, _⟩ => ⟨S33000000x1, .i32⟩
  | .hbm, ⟨44, _⟩ => ⟨S33000000x1, .i1⟩
  | .hbm, ⟨45, _⟩ => ⟨S1x1, .i32⟩
  | .hbm, ⟨46, _⟩ => ⟨S33000000x1, .i32⟩
  | .hbm, ⟨47, _⟩ => ⟨S33000000x1, .i1⟩
  | .hbm, ⟨48, _⟩ => ⟨S33000000x1, .i1⟩
  | .hbm, ⟨49, _⟩ => ⟨S_, .i1⟩
  | .hbm, ⟨50, _⟩ => ⟨S33000000, .i1⟩
  | .hbm, ⟨51, _⟩ => ⟨S33000000x2, .f32⟩
  | .hbm, ⟨52, _⟩ => ⟨S33000000x2, .i1⟩
  | .hbm, ⟨53, _⟩ => ⟨S_, .f32⟩
  | .hbm, ⟨54, _⟩ => ⟨S33000000x2, .f32⟩
  | .hbm, ⟨55, _⟩ => ⟨S33000000x2, .f32⟩
  | .hbm, ⟨56, _⟩ => ⟨S_, .f32⟩
  | .hbm, ⟨57, _⟩ => ⟨S1000000x2, .f32⟩
  | .hbm, ⟨58, _⟩ => ⟨S33000000x1, .i32⟩
  | .hbm, ⟨59, _⟩ => ⟨S1000000x2, .f32⟩
  | .hbm, ⟨60, _⟩ => ⟨S1x8, .f32⟩
  | .hbm, ⟨61, _⟩ => ⟨S1000000x1, .f32⟩
  | .hbm, ⟨62, _⟩ => ⟨S_, .i32⟩
  | .hbm, ⟨63, _⟩ => ⟨S33000000, .i32⟩
  | .hbm, ⟨64, _⟩ => ⟨S33000000, .i1⟩
  | .hbm, ⟨65, _⟩ => ⟨S_, .i32⟩
  | .hbm, ⟨66, _⟩ => ⟨S33000000, .i32⟩
  | .hbm, ⟨67, _⟩ => ⟨S33000000, .i32⟩
  | .hbm, ⟨68, _⟩ => ⟨S33000000, .i32⟩
  | .hbm, ⟨69, _⟩ => ⟨S33000000x1, .i32⟩
  | .hbm, ⟨70, _⟩ => ⟨S1, .i32⟩
  | .hbm, ⟨71, _⟩ => ⟨S_, .i32⟩
  | .hbm, ⟨72, _⟩ => ⟨S33000000x1, .i32⟩
  | .hbm, ⟨73, _⟩ => ⟨S33000000x1, .i1⟩
  | .hbm, ⟨74, _⟩ => ⟨S1x1, .i32⟩
  | .hbm, ⟨75, _⟩ => ⟨S33000000x1, .i32⟩
  | .hbm, ⟨76, _⟩ => ⟨S33000000x1, .i1⟩
  | .hbm, ⟨77, _⟩ => ⟨S33000000x1, .i1⟩
  | .hbm, ⟨78, _⟩ => ⟨S_, .i1⟩
  | .hbm, ⟨79, _⟩ => ⟨S33000000, .i1⟩
  | .hbm, ⟨80, _⟩ => ⟨S33000000x1, .f32⟩
  | .hbm, ⟨81, _⟩ => ⟨S33000000x1, .i1⟩
  | .hbm, ⟨82, _⟩ => ⟨S_, .f32⟩
  | .hbm, ⟨83, _⟩ => ⟨S33000000x1, .f32⟩
  | .hbm, ⟨84, _⟩ => ⟨S33000000x1, .f32⟩
  | .hbm, ⟨85, _⟩ => ⟨S_, .f32⟩
  | .hbm, ⟨86, _⟩ => ⟨S1000000x1, .f32⟩
  | .hbm, ⟨87, _⟩ => ⟨S33000000x1, .i32⟩
  | .hbm, ⟨88, _⟩ => ⟨S1000000x1, .f32⟩
  | .hbm, ⟨89, _⟩ => ⟨S1x1, .f32⟩
  | .hbm, ⟨90, _⟩ => ⟨S1000000x1, .f32⟩
  | .local _ .vmem, ⟨0, _⟩ => ⟨S5000x2, .f32⟩
  | .local _ .vmem, ⟨1, _⟩ => ⟨S5000x2, .f32⟩
  | .local _ .vmem, ⟨2, _⟩ => ⟨S5000x1, .f32⟩
  | .local _ .vmem, ⟨3, _⟩ => ⟨S5000x1, .f32⟩
  | .local _ .vmem, ⟨4, _⟩ => ⟨S2x8, .f32⟩
  | .local _ .vmem, ⟨5, _⟩ => ⟨S1x8, .f32⟩
  | .local _ .vmem, ⟨6, _⟩ => ⟨S8x1, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v20 : Ref sig .tc := ⟨.hbm, 55, rfl⟩
abbrev main_cst_4 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v26 : Ref sig .tc := ⟨.hbm, 84, rfl⟩
abbrev main_cst_5 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  bcast_S_S33000000x1 : S_.BroadcastsInDim S33000000x1 (![] : Fin 0 → Fin S33000000x1.rank)
  bcast_S1_S1x1_1 : S1.BroadcastsInDim S1x1 (![1] : Fin 1 → Fin S1x1.rank)
  bcast_S1x1_S33000000x1_0_1 : S1x1.BroadcastsInDim S33000000x1 (![0, 1] : Fin 2 → Fin S33000000x1.rank)
  reducesTo_S33000000x1_S33000000_d1 : S33000000x1.ReducesTo [1] S33000000
  h_S_ : 0 < S_.numel
  bcast_S33000000_S33000000x2_0 : S33000000.BroadcastsInDim S33000000x2 (![0] : Fin 1 → Fin S33000000x2.rank)
  bcast_S_S33000000x2 : S_.BroadcastsInDim S33000000x2 (![] : Fin 0 → Fin S33000000x2.rank)
  bcast_S_S1000000x2 : S_.BroadcastsInDim S1000000x2 (![] : Fin 0 → Fin S1000000x2.rank)
  shapeCasts_S8_S1x8 : S8.ShapeCasts S1x8
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x8_S2x8_0_0 : ∀ a, (![0, 0] : Fin 2 → Nat) a + S2x8.size a ≤ S2x8.size a
  h_S2x8 : 0 < S2x8.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x8 : S5000x1.Broadcasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x1_S8x1_0_0 : ∀ a, (![0, 0] : Fin 2 → Nat) a + S8x1.size a ≤ S8x1.size a
  h_S8x1 : 0 < S8x1.numel
  bcast_S_S1000000x1 : S_.BroadcastsInDim S1000000x1 (![] : Fin 0 → Fin S1000000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S1000000_S33000000x1_S33000000_n_0_0_1_wf : ScatterDims.WF S1000000 S33000000x1 S33000000 [] [0] [0] 1
  gather_S1000000x2_S33000000x1_S33000000x2_1_0_n_n_0_1_12_wf : GatherDims.WF S1000000x2 S33000000x1 S33000000x2 [1] [0] [] [0] [] 1 ![1, 2]
  scatter_S1000000x2_S33000000x1_S33000000x2_1_0_0_1_wf : ScatterDims.WF S1000000x2 S33000000x1 S33000000x2 [1] [0] [0] 1
  dot_S5000x2_S2x8_S5000x8_1_0_0_1_n_n_wf : DotDims.WF S5000x2 S2x8 S5000x8 [1] [0] [0] [1] [] []
  dot_S5000x8_S8x1_S5000x1_1_0_0_1_n_n_wf : DotDims.WF S5000x8 S8x1 S5000x1 [1] [0] [0] [1] [] []
  gather_S1000000x1_S33000000x1_S33000000x1_1_0_n_n_0_1_11_wf : GatherDims.WF S1000000x1 S33000000x1 S33000000x1 [1] [0] [] [0] [] 1 ![1, 1]
  scatter_S1000000x1_S33000000x1_S33000000x1_1_0_0_1_wf : ScatterDims.WF S1000000x1 S33000000x1 S33000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S1000000x2.size a
  hwx0_0 : ∀ i : grid0.Coords, EltTy.bits .f32 = 32 ∨ (Rect.block (s := S1000000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .f32 = 32 ∨ (Rect.block (s := S1000000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x8.size a ≤ S2x8.size a
  hwx0_2 : ∀ i : grid0.Coords, EltTy.bits .f32 = 32 ∨ (Rect.block (s := S2x8) S2x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S1000000x1.size a
  hwx0_5 : ∀ i : grid0.Coords, EltTy.bits .f32 = 32 ∨ (Rect.block (s := S1000000x1) S5000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S1000000x1.size a
  hwx1_0 : ∀ i : grid1.Coords, EltTy.bits .f32 = 32 ∨ (Rect.block (s := S1000000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .f32 = 32 ∨ (Rect.block (s := S1000000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S1000000x1.size a
  hwx1_3 : ∀ i : grid1.Coords, EltTy.bits .f32 = 32 ∨ (Rect.block (s := S1000000x1) S5000x1.size (cc1_transform_3 i) (hinb1_3 i)).WholeWords (EltTy.packing .f32)

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000x2_S33000000x1_S33000000x2_1_0_n_n_0_1_12 : GatherDims S1000000x2 S33000000x1 S33000000x2 where
  offsetDims := [1]
  collapsedSliceDims := [0]
  operandBatchingDims := []
  startIndicesBatchingDims := []
  startIndexMap := [0]
  indexVectorDim := 1
  sliceSizes := ![1, 2]
  wf := gather_S1000000x2_S33000000x1_S33000000x2_1_0_n_n_0_1_12_wf
def scatter_S1000000x2_S33000000x1_S33000000x2_1_0_0_1 : ScatterDims S1000000x2 S33000000x1 S33000000x2 where
  updateWindowDims := [1]
  insertedWindowDims := [0]
  scatterDimsToOperandDims := [0]
  indexVectorDim := 1
  wf := scatter_S1000000x2_S33000000x1_S33000000x2_1_0_0_1_wf
def dot_S5000x2_S2x8_S5000x8_1_0_0_1_n_n : DotDims S5000x2 S2x8 S5000x8 where
  lhsContracting := [1]
  rhsContracting := [0]
  lhsNonContracting := [0]
  rhsNonContracting := [1]
  lhsBatch := []
  rhsBatch := []
  wf := dot_S5000x2_S2x8_S5000x8_1_0_0_1_n_n_wf
def dot_S5000x8_S8x1_S5000x1_1_0_0_1_n_n : DotDims S5000x8 S8x1 S5000x1 where
  lhsContracting := [1]
  rhsContracting := [0]
  lhsNonContracting := [0]
  rhsNonContracting := [1]
  lhsBatch := []
  rhsBatch := []
  wf := dot_S5000x8_S8x1_S5000x1_1_0_0_1_n_n_wf
def gather_S1000000x1_S33000000x1_S33000000x1_1_0_n_n_0_1_11 : GatherDims S1000000x1 S33000000x1 S33000000x1 where
  offsetDims := [1]
  collapsedSliceDims := [0]
  operandBatchingDims := []
  startIndicesBatchingDims := []
  startIndexMap := [0]
  indexVectorDim := 1
  sliceSizes := ![1, 1]
  wf := gather_S1000000x1_S33000000x1_S33000000x1_1_0_n_n_0_1_11_wf
def scatter_S1000000x1_S33000000x1_S33000000x1_1_0_0_1 : ScatterDims S1000000x1 S33000000x1 S33000000x1 where
  updateWindowDims := [1]
  insertedWindowDims := [0]
  scatterDimsToOperandDims := [0]
  indexVectorDim := 1
  wf := scatter_S1000000x1_S33000000x1_S33000000x1_1_0_0_1_wf

abbrev win0_0 : Pipeline.Window sig grid0 :=
  Pipeline.Window.ofSpec (Memref.whole main_v23) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x2 : Shape := ⟨2, ![1000000, 2]⟩
abbrev S2x32000000 : Shape := ⟨2, ![2, 32000000]⟩
abbrev S2x8 : Shape := ⟨2, ![2, 8]⟩
abbrev S8 : Shape := ⟨1, ![8]⟩
abbrev S8x1 : Shape := ⟨2, ![8, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S1000000x8 : Shape := ⟨2, ![1000000, 8]⟩
abbrev S33000000x8 : Shape := ⟨2, ![33000000, 8]⟩
abbrev S1x8 : Shape := ⟨2, ![1, 8]⟩
abbrev S1000000x1 : Shape := ⟨2, ![1000000, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x32000000, .i32⟩
  | .hbm, ⟨2, _⟩ => ⟨S2x8, .f32⟩
  | .hbm, ⟨3, _⟩ => ⟨S8, .f32⟩
  | .hbm, ⟨4, _⟩ => ⟨S8x1, .f32⟩
  | .hbm, ⟨5, _⟩ => ⟨S1, .f32⟩
  | .hbm, ⟨6, _⟩ => ⟨S1000000, .i32⟩
  | .hbm, ⟨7, _⟩ => ⟨S1x32000000, .i32⟩
  | .hbm, ⟨8, _⟩ => ⟨S32000000, .i32⟩
  | .hbm, ⟨9, _⟩ => ⟨S33000000, .i32⟩
  | .hbm, ⟨10, _⟩ => ⟨S1x32000000, .i32⟩
  | .hbm, ⟨11, _⟩ => ⟨S32000000, .i32⟩
  | .hbm, ⟨12, _⟩ => ⟨S33000000, .i32⟩
  | .hbm, ⟨13, _⟩ => ⟨S_, .f32⟩
  | .hbm, ⟨14, _⟩ => ⟨S33000000, .f32⟩
  | .hbm, ⟨15, _⟩ => ⟨S_, .f32⟩
  | .hbm, ⟨16, _⟩ => ⟨S1000000, .f32⟩
  | .hbm, ⟨17, _⟩ => ⟨S33000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .i32⟩
  | .hbm, ⟨31, _⟩ => ⟨S33000000, .i32⟩
  | .hbm, ⟨32, _⟩ => ⟨S33000000, .i1⟩
  | .hbm, ⟨33, _⟩ => ⟨S_, .i32⟩
  | .hbm, ⟨34, _⟩ => ⟨S33000000, .i32⟩
  | .hbm, ⟨35, _⟩ => ⟨S33000000, .i32⟩
  | .hbm, ⟨36, _⟩ => ⟨S33000000, .i32⟩
  | .hbm, ⟨37, _⟩ => ⟨S33000000x1, .i32⟩
  | .hbm, ⟨38, _⟩ => ⟨S33000000, .f32⟩
  | .hbm, ⟨39, _⟩ => ⟨S_, .i32⟩
  | .hbm, ⟨40, _⟩ => ⟨S33000000, .i32⟩
  | .hbm, ⟨41, _⟩ => ⟨S33000000, .i1⟩
  | .hbm, ⟨42, _⟩ => ⟨S_, .i32⟩
  | .hbm, ⟨43, _⟩ => ⟨S33000000, .i32⟩
  | .hbm, ⟨44, _⟩ => ⟨S33000000, .i32⟩
  | .hbm, ⟨45, _⟩ => ⟨S33000000, .i32⟩
  | .hbm, ⟨46, _⟩ => ⟨S33000000x1, .i32⟩
  | .hbm, ⟨47, _⟩ => ⟨S33000000, .f32⟩
  | .hbm, ⟨48, _⟩ => ⟨S33000000, .f32⟩
  | .hbm, ⟨49, _⟩ => ⟨S1000000x8, .f32⟩
  | .hbm, ⟨50, _⟩ => ⟨S_, .i32⟩
  | .hbm, ⟨51, _⟩ => ⟨S33000000, .i32⟩
  | .hbm, ⟨52, _⟩ => ⟨S33000000, .i1⟩
  | .hbm, ⟨53, _⟩ => ⟨S_, .i32⟩
  | .hbm, ⟨54, _⟩ => ⟨S33000000, .i32⟩
  | .hbm, ⟨55, _⟩ => ⟨S33000000, .i32⟩
  | .hbm, ⟨56, _⟩ => ⟨S33000000, .i32⟩
  | .hbm, ⟨57, _⟩ => ⟨S33000000x1, .i32⟩
  | .hbm, ⟨58, _⟩ => ⟨S33000000x8, .f32⟩
  | .hbm, ⟨59, _⟩ => ⟨S33000000x1, .f32⟩
  | .hbm, ⟨60, _⟩ => ⟨S33000000x8, .f32⟩
  | .hbm, ⟨61, _⟩ => ⟨S33000000x8, .f32⟩
  | .hbm, ⟨62, _⟩ => ⟨S_, .f32⟩
  | .hbm, ⟨63, _⟩ => ⟨S1000000x8, .f32⟩
  | .hbm, ⟨64, _⟩ => ⟨S33000000x1, .i32⟩
  | .hbm, ⟨65, _⟩ => ⟨S1000000x8, .f32⟩
  | .hbm, ⟨66, _⟩ => ⟨S1x8, .f32⟩
  | .hbm, ⟨67, _⟩ => ⟨S1000000x8, .f32⟩
  | .hbm, ⟨68, _⟩ => ⟨S1000000x8, .f32⟩
  | .hbm, ⟨69, _⟩ => ⟨S_, .f32⟩
  | .hbm, ⟨70, _⟩ => ⟨S1000000x8, .f32⟩
  | .hbm, ⟨71, _⟩ => ⟨S1000000x8, .f32⟩
  | .hbm, ⟨72, _⟩ => ⟨S1000000x1, .f32⟩
  | .hbm, ⟨73, _⟩ => ⟨S_, .i32⟩
  | .hbm, ⟨74, _⟩ => ⟨S33000000, .i32⟩
  | .hbm, ⟨75, _⟩ => ⟨S33000000, .i1⟩
  | .hbm, ⟨76, _⟩ => ⟨S_, .i32⟩
  | .hbm, ⟨77, _⟩ => ⟨S33000000, .i32⟩
  | .hbm, ⟨78, _⟩ => ⟨S33000000, .i32⟩
  | .hbm, ⟨79, _⟩ => ⟨S33000000, .i32⟩
  | .hbm, ⟨80, _⟩ => ⟨S33000000x1, .i32⟩
  | .hbm, ⟨81, _⟩ => ⟨S33000000x1, .f32⟩
  | .hbm, ⟨82, _⟩ => ⟨S33000000x1, .f32⟩
  | .hbm, ⟨83, _⟩ => ⟨S33000000x1, .f32⟩
  | .hbm, ⟨84, _⟩ => ⟨S_, .f32⟩
  | .hbm, ⟨85, _⟩ => ⟨S1000000x1, .f32⟩
  | .hbm, ⟨86, _⟩ => ⟨S33000000x1, .i32⟩
  | .hbm, ⟨87, _⟩ => ⟨S1000000x1, .f32⟩
  | .hbm, ⟨88, _⟩ => ⟨S1x1, .f32⟩
  | .hbm, ⟨89, _⟩ => ⟨S1000000x1, .f32⟩
  | .hbm, ⟨90, _⟩ => ⟨S1000000x1, .f32⟩
  | .hbm, ⟨91, _⟩ => ⟨S1000000x1, .f32⟩
  | .hbm, ⟨92, _⟩ => ⟨S1000000x1, .f32⟩
  | .hbm, ⟨93, _⟩ => ⟨S_, .f32⟩
  | .hbm, ⟨94, _⟩ => ⟨S1000000x1, .f32⟩
  | .hbm, ⟨95, _⟩ => ⟨S1000000x1, .f32⟩
  | .hbm, ⟨96, _⟩ => ⟨S_, .f32⟩
  | .hbm, ⟨97, _⟩ => ⟨S1000000x1, .f32⟩
  | .hbm, ⟨98, _⟩ => ⟨S1000000x1, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S33000000x1_S33000000x8_0_1 : S33000000x1.BroadcastsInDim S33000000x8 (![0, 1] : Fin 2 → Fin S33000000x8.rank)
  bcast_S_S1000000x8 : S_.BroadcastsInDim S1000000x8 (![] : Fin 0 → Fin S1000000x8.rank)
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S33000000x1_S33000000_n_0_0_1_wf : ScatterDims.WF S1000000 S33000000x1 S33000000 [] [0] [0] 1
  gather_S1000000_S33000000x1_S33000000_n_0_n_n_0_1_1_wf : GatherDims.WF S1000000 S33000000x1 S33000000 [] [0] [] [0] [] 1 ![1]
  dot_S1000000x2_S2x8_S1000000x8_1_0_0_1_n_n_wf : DotDims.WF S1000000x2 S2x8 S1000000x8 [1] [0] [0] [1] [] []
  gather_S1000000x8_S33000000x1_S33000000x8_1_0_n_n_0_1_18_wf : GatherDims.WF S1000000x8 S33000000x1 S33000000x8 [1] [0] [] [0] [] 1 ![1, 8]
  scatter_S1000000x8_S33000000x1_S33000000x8_1_0_0_1_wf : ScatterDims.WF S1000000x8 S33000000x1 S33000000x8 [1] [0] [0] 1
  dot_S1000000x8_S8x1_S1000000x1_1_0_0_1_n_n_wf : DotDims.WF S1000000x8 S8x1 S1000000x1 [1] [0] [0] [1] [] []
  gather_S1000000x1_S33000000x1_S33000000x1_1_0_n_n_0_1_11_wf : GatherDims.WF S1000000x1 S33000000x1 S33000000x1 [1] [0] [] [0] [] 1 ![1, 1]
  scatter_S1000000x1_S33000000x1_S33000000x1_1_0_0_1_wf : ScatterDims.WF S1000000x1 S33000000x1 S33000000x1 [1] [0] [0] 1

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def dot_S1000000x2_S2x8_S1000000x8_1_0_0_1_n_n : DotDims S1000000x2 S2x8 S1000000x8 where
  lhsContracting := [1]
  rhsContracting := [0]
  lhsNonContracting := [0]
  rhsNonContracting := [1]
  lhsBatch := []
  rhsBatch := []
  wf := dot_S1000000x2_S2x8_S1000000x8_1_0_0_1_n_n_wf
def gather_S1000000x8_S33000000x1_S33000000x8_1_0_n_n_0_1_18 : GatherDims S1000000x8 S33000000x1 S33000000x8 where
  offsetDims := [1]
  collapsedSliceDims := [0]
  operandBatchingDims := []
  startIndicesBatchingDims := []
  startIndexMap := [0]
  indexVectorDim := 1
  sliceSizes := ![1, 8]
  wf := gather_S1000000x8_S33000000x1_S33000000x8_1_0_n_n_0_1_18_wf
def scatter_S1000000x8_S33000000x1_S33000000x8_1_0_0_1 : ScatterDims S1000000x8 S33000000x1 S33000000x8 where
  updateWindowDims := [1]
  insertedWindowDims := [0]
  scatterDimsToOperandDims := [0]
  indexVectorDim := 1
  wf := scatter_S1000000x8_S33000000x1_S33000000x8_1_0_0_1_wf
def dot_S1000000x8_S8x1_S1000000x1_1_0_0_1_n_n : DotDims S1000000x8 S8x1 S1000000x1 where
  lhsContracting := [1]
  rhsContracting := [0]
  lhsNonContracting := [0]
  rhsNonContracting := [1]
  lhsBatch := []
  rhsBatch := []
  wf := dot_S1000000x8_S8x1_S1000000x1_1_0_0_1_n_n_wf
def gather_S1000000x1_S33000000x1_S33000000x1_1_0_n_n_0_1_11 : GatherDims S1000000x1 S33000000x1 S33000000x1 where
  offsetDims := [1]
  collapsedSliceDims := [0]
  operandBatchingDims := []
  startIndicesBatchingDims := []
  startIndexMap := [0]
  indexVectorDim := 1
  sliceSizes := ![1, 1]
  wf := gather_S1000000x1_S33000000x1_S33000000x1_1_0_n_n_0_1_11_wf
def scatter_S1000000x1_S33000000x1_S33000000x1_1_0_0_1 : ScatterDims S1000000x1 S33000000x1 S33000000x1 where
  updateWindowDims := [1]
  insertedWindowDims := [0]
  scatterDimsToOperandDims := [0]
  indexVectorDim := 1
  wf := scatter_S1000000x1_S33000000x1_S33000000x1_1_0_0_1_wf

class Facts : Prop extends Facts₀ where

variable [Facts]
-- ==== Proof.Spec.lean ====
/-
  The mathematics both programs compute, index by index, over the extended reals.

  A graph of 1000000 nodes and 33000000 directed edges (32000000 given edges followed by one self-loop per node):
  edge `e` goes from node `src e` to node `dst e`, both stored as signed 32-bit words. An edge LANDS on node `n` when
  its target word, read signed, is `n` (a target outside the node range lands nowhere). A row read through an index
  word `v` first wraps a negative `v` by the node count and then clamps into the node range (`gidx`).

  With `D` the degree normalisation, one program scales the features by `D` before the gather and after the
  aggregation (`outK`); the other multiplies every edge message by `D (source) * D (target)` (`outR`).
-/
import Idealize.ShloMosaic.Lib.StableHlo.Predicate
import Idealize.ShloMosaic.PureOps.Ideal

noncomputable section

namespace Cert.Spec

open Idealize.ShloMosaic Idealize.ShloMosaic.StableHlo.Predicate

/-- The node count and the edge count (given edges and self-loops). -/
abbrev Nn : Nat := 1000000
abbrev Ne : Nat := 33000000

/-- The edges whose target word, read signed, is node `n`. -/
def lands (dst : Fin Ne → BitVec 32) (n : Fin Nn) : Finset (Fin Ne) :=
  Finset.univ.filter (fun p : Fin Ne => (dst p).toInt = (n.val : ℤ))

/-- A negative index word counts from the end: it is moved up by the node count. -/
def wrap (v : BitVec 32) : BitVec 32 := if IntOp.cmpi .slt v 0#32 = 1#1 then v + 1000000#32 else v

/-- The row an index word reads: wrapped, read signed, clamped into the node range. -/
def gidx (v : BitVec 32) : Fin Nn := ⟨min (wrap v).toInt.toNat 999999, by show _ < 1000000; omega⟩

/-! ## The two dense node-wise stages, as whole-array functions -/

/-- Stage one on node `n`: `D n * Σ_k max (D n * (Σ_j A n j * W1 j k) + b1 k) 0 * W2 k`. -/
def L1 (A : (⟨2, ![1000000, 2]⟩ : Shape).Idx → EReal) (Dv : (⟨2, ![1000000, 1]⟩ : Shape).Idx → EReal)
    (W1 : (⟨2, ![2, 8]⟩ : Shape).Idx → EReal) (B1 : (⟨2, ![1, 8]⟩ : Shape).Idx → EReal)
    (W2 : (⟨2, ![8, 1]⟩ : Shape).Idx → EReal) : (⟨2, ![1000000, 1]⟩ : Shape).Idx → EReal :=
  fun i => Dv (ixP (i 0)) * ∑ k : Fin 8,
    max (Dv (ixP (i 0)) * (∑ j : Fin 2, A (ij (i 0) j) * W1 (ij j k)) + B1 (ij (0 : Fin 1) k)) 0 * W2 (ixP k)

/-- Stage two on node `n`: the logistic function of `D n * A n + b2`. -/
def L2 (A Dv : (⟨2, ![1000000, 1]⟩ : Shape).Idx → EReal) (B : (⟨2, ![1, 1]⟩ : Shape).Idx → EReal) :
    (⟨2, ![1000000, 1]⟩ : Shape).Idx → EReal :=
  fun i => Ideal.logistic (Dv (ixP (i 0)) * A (ixP (i 0)) + B (ij (0 : Fin 1) (0 : Fin 1)))

/-! ## Both results, index by index -/

section
variable (x : Fin Nn → Fin 2 → EReal) (W1 : Fin 2 → Fin 8 → EReal) (b1 : Fin 8 → EReal) (W2 : Fin 8 → EReal) (b2 : EReal)
  (D : Fin Nn → EReal) (src dst : Fin Ne → BitVec 32)

/-- Scale, gather, aggregate: the raw features of the edges landing on `n`, each scaled at its source. -/
def aggK (n : Fin Nn) (j : Fin 2) : EReal := ∑ e ∈ lands dst n, x (gidx (src e)) j * D (gidx (src e))
/-- The hidden layer, transform after aggregation. -/
def hidK (n : Fin Nn) (k : Fin 8) : EReal := max (D n * (∑ j : Fin 2, aggK x D src dst n j * W1 j k) + b1 k) 0
/-- The second transform, pre-scaled at the node. -/
def hs2K (n : Fin Nn) : EReal := D n * ∑ k : Fin 8, hidK x W1 b1 D src dst n k * W2 k
/-- The result with the normalisation split around the aggregation. -/
def outK (n : Fin Nn) : EReal :=
  Ideal.logistic (D n * (∑ e ∈ lands dst n, hs2K x W1 b1 W2 D src dst (gidx (src e))) + b2)

/-- An edge's normalisation: the product of its two ends'. -/
def nrm (e : Fin Ne) : EReal := D (gidx (src e)) * D (gidx (dst e))
/-- The hidden layer, transform before aggregation. -/
def hidR (n : Fin Nn) (k : Fin 8) : EReal :=
  max ((∑ e ∈ lands dst n, (∑ j : Fin 2, x (gidx (src e)) j * W1 j k) * nrm D src dst e) + b1 k) 0
/-- The second transform. -/
def h2R (n : Fin Nn) : EReal := ∑ k : Fin 8, hidR x W1 b1 D src dst n k * W2 k
/-- The result with the normalisation on every edge message. -/
def outR (n : Fin Nn) : EReal :=
  Ideal.logistic ((∑ e ∈ lands dst n, h2R x W1 b1 W2 D src dst (gidx (src e)) * nrm D src dst e) + b2)

end

end Cert.Spec

end
-- ==== Proof.KTerm.lean ====
/-
  The kernel program's host computation as whole-array terms of its arguments, in the printed operators, with the
  two dense node-wise stages as the functions `L1` and `L2`.

  `srcT` / `dstT`: the edge words (given edges, then one self-loop per node). `degT`: how many edges land on each node;
  `dinvT`: its inverse square root where positive. A take (`take2T`, `take1T`) wraps a negative index, gathers the row,
  and keeps it only where the wrapped index is inside the table. `aggxT`: the scaled features gathered along the edges
  and summed at their targets; `agg2T` the same for the pre-scaled second-layer column; `outT` the result.
-/
import proofs.«410824_j56633438765476_3_alg».proof.KernelIdeal
import proofs.«410824_j56633438765476_3_alg».proof.Proof.Gen.KernelIdeal
import proofs.«410824_j56633438765476_3_alg».proof.Proof.Spec
import Idealize.ShloMosaic.PureOps.Ideal

noncomputable section

namespace Cert.KernelIdeal.Term

open Cert.KernelIdeal Cert.Spec Idealize.ShloMosaic
open Facts₀ Facts

/-- The source words: row 0 of the edge array, then the nodes themselves. -/
def srcT (a1 : IVec S2x32000000 32) : IVec S33000000 32 :=
  concatenate S33000000 0 [⟨S32000000, shapeCast S32000000 (extractStridedSlice S1x32000000 ![0, 0] a1 slices_S2x32000000_S1x32000000_0_0) shapeCasts_S1x32000000_S32000000⟩, ⟨S1000000, iotaInDim S1000000 32 0⟩] concatenates_S32000000_S1000000_S33000000_d0

/-- The target words: row 1 of the edge array, then the nodes themselves. -/
def dstT (a1 : IVec S2x32000000 32) : IVec S33000000 32 :=
  concatenate S33000000 0 [⟨S32000000, shapeCast S32000000 (extractStridedSlice S1x32000000 ![1, 0] a1 slices_S2x32000000_S1x32000000_1_0) shapeCasts_S1x32000000_S32000000⟩, ⟨S1000000, iotaInDim S1000000 32 0⟩] concatenates_S32000000_S1000000_S33000000_d0

/-- The target words as the column a scatter reads. -/
def dcolI (a1 : IVec S2x32000000 32) : IVec S33000000x1 32 :=
  broadcastInDim S33000000x1 ![0] bcast_S33000000_S33000000x1_0 (dstT a1)

/-- The degree: one added at every edge's target. -/
def degT (a1 : IVec S2x32000000 32) : FVec Ideal S1000000 .f32 :=
  Host.scatterAdd scatter_S1000000_S33000000x1_S33000000_n_0_0_1
    (broadcastInDim S1000000 ![] bcast_S_S1000000 (constant S_ .f32 0x00000000#32))
    (dcolI a1)
    (broadcastInDim S33000000 ![] bcast_S_S33000000 (constant S_ .f32 0x3F800000#32))

/-- The normalisation: the inverse square root of the degree (at least one) where the degree is positive, else zero. -/
def dinvT (a1 : IVec S2x32000000 32) : FVec Ideal S1000000 .f32 :=
  select (cmpf (F := Ideal) .ogt (degT a1) (broadcastInDim S1000000 ![] bcast_S_S1000000 (constant S_ .f32 0x00000000#32)))
    (Host.rsqrt (maximumf (degT a1) (broadcastInDim S1000000 ![] bcast_S_S1000000 (constant S_ .f32 0x3F800000#32))))
    (broadcastInDim S1000000 ![] bcast_S_S1000000 (id (constant S_ .f32 0x00000000#32)))

/-- The normalisation as a one-column array. -/
def dcolT (a1 : IVec S2x32000000 32) : FVec Ideal S1000000x1 .f32 :=
  broadcastInDim S1000000x1 ![0] bcast_S1000000_S1000000x1_0 (dinvT a1)

/-- A negative index counts from the end. -/
def wrapT (idx : IVec S33000000 32) : IVec S33000000 32 :=
  select (cmpi .slt idx (broadcastInDim S33000000 ![] bcast_S_S33000000 (constantI S_ 32 0#32)))
    (addi idx (broadcastInDim S33000000 ![] bcast_S_S33000000 (constantI S_ 32 1000000#32))) idx

/-- The wrapped indices as the column a gather reads. -/
def colT (idx : IVec S33000000 32) : IVec S33000000x1 32 :=
  broadcastInDim S33000000x1 ![0] bcast_S33000000_S33000000x1_0 (wrapT idx)

/-- Where the wrapped index is inside the table. -/
def maskT (idx : IVec S33000000 32) : IVec S33000000 1 :=
  Host.reduce IntOp.andi
    (andi (cmpi .sge (colT idx) (broadcastInDim S33000000x1 ![] bcast_S_S33000000x1 (constantI S_ 32 0#32)))
      (cmpi .sle (colT idx) (broadcastInDim S33000000x1 ![0, 1] bcast_S1x1_S33000000x1_0_1 (broadcastInDim S1x1 ![1] bcast_S1_S1x1_1 (constantI S1 32 999999#32)))))
    (constantI S_ 1 1#1) reducesTo_S33000000x1_S33000000_d1 h_S_

/-- The take of two-column rows. -/
def take2T (x : FVec Ideal S1000000x2 .f32) (idx : IVec S33000000 32) : FVec Ideal S33000000x2 .f32 :=
  select (broadcastInDim S33000000x2 ![0] bcast_S33000000_S33000000x2_0 (maskT idx))
    (Host.gather gather_S1000000x2_S33000000x1_S33000000x2_1_0_n_n_0_1_12 x (colT idx))
    (broadcastInDim S33000000x2 ![] bcast_S_S33000000x2 (constant S_ .f32 0x7FC00000#32))

/-- The take of one-column rows. -/
def take1T (x : FVec Ideal S1000000x1 .f32) (idx : IVec S33000000 32) : FVec Ideal S33000000x1 .f32 :=
  select (broadcastInDim S33000000x1 ![0] bcast_S33000000_S33000000x1_0 (maskT idx))
    (Host.gather gather_S1000000x1_S33000000x1_S33000000x1_1_0_n_n_0_1_11 x (colT idx))
    (broadcastInDim S33000000x1 ![] bcast_S_S33000000x1 (constant S_ .f32 0x7FC00000#32))

/-- The features scaled at their node. -/
def xsT (a0 : FVec Ideal S1000000x2 .f32) (a1 : IVec S2x32000000 32) : FVec Ideal S1000000x2 .f32 :=
  mulf a0 (broadcastInDim S1000000x2 ![0, 1] bcast_S1000000x1_S1000000x2_0_1 (dcolT a1))

/-- The first aggregation. -/
def aggxT (a0 : FVec Ideal S1000000x2 .f32) (a1 : IVec S2x32000000 32) : FVec Ideal S1000000x2 .f32 :=
  Host.scatterAdd scatter_S1000000x2_S33000000x1_S33000000x2_1_0_0_1
    (broadcastInDim S1000000x2 ![] bcast_S_S1000000x2 (constant S_ .f32 0x00000000#32))
    (dcolI a1) (take2T (xsT a0 a1) (srcT a1))

/-- The first dense stage's output. -/
def hs2T (a0 : FVec Ideal S1000000x2 .f32) (a1 : IVec S2x32000000 32) (a2 : FVec Ideal S2x8 .f32) (a3 : FVec Ideal S8 .f32)
    (a4 : FVec Ideal S8x1 .f32) : FVec Ideal S1000000x1 .f32 :=
  L1 (aggxT a0 a1) (dcolT a1) a2 (shapeCast S1x8 a3 shapeCasts_S8_S1x8) a4

/-- The second aggregation. -/
def agg2T (a0 : FVec Ideal S1000000x2 .f32) (a1 : IVec S2x32000000 32) (a2 : FVec Ideal S2x8 .f32) (a3 : FVec Ideal S8 .f32)
    (a4 : FVec Ideal S8x1 .f32) : FVec Ideal S1000000x1 .f32 :=
  Host.scatterAdd scatter_S1000000x1_S33000000x1_S33000000x1_1_0_0_1
    (broadcastInDim S1000000x1 ![] bcast_S_S1000000x1 (constant S_ .f32 0x00000000#32))
    (dcolI a1) (take1T (hs2T a0 a1 a2 a3 a4) (srcT a1))

/-- The result. -/
def outT (a0 : FVec Ideal S1000000x2 .f32) (a1 : IVec S2x32000000 32) (a2 : FVec Ideal S2x8 .f32) (a3 : FVec Ideal S8 .f32)
    (a4 : FVec Ideal S8x1 .f32) (a5 : FVec Ideal S1 .f32) : FVec Ideal S1000000x1 .f32 :=
  L2 (agg2T a0 a1 a2 a3 a4) (dcolT a1) (shapeCast S1x1 a5 shapeCasts_S1_S1x1)

end Cert.KernelIdeal.Term

end
-- ==== Proof.Edges.lean ====
/-
  The inputs as plain indexed functions, and the edge list with its self-loops.

  Edge `e` below 32000000 is a given edge: its source word is row 0, its target word row 1 of the edge array at column `e`.
  Edge `32000000 + i` is node `i`'s self-loop: both words are `i`.
-/
import proofs.«410824_j56633438765476_3_alg».proof.Proof.Spec

noncomputable section

namespace Cert.Spec

open Idealize.ShloMosaic Idealize.ShloMosaic.StableHlo.Predicate

/-- The source word of every edge. -/
def srcF (a1 : (⟨2, ![2, 32000000]⟩ : Shape).Idx → BitVec 32) : Fin Ne → BitVec 32 :=
  fun e => if h : e.val < 32000000 then a1 (ij (0 : Fin 2) (⟨e.val, h⟩ : Fin 32000000)) else BitVec.ofNat 32 (e.val - 32000000)

/-- The target word of every edge. -/
def dstF (a1 : (⟨2, ![2, 32000000]⟩ : Shape).Idx → BitVec 32) : Fin Ne → BitVec 32 :=
  fun e => if h : e.val < 32000000 then a1 (ij (1 : Fin 2) (⟨e.val, h⟩ : Fin 32000000)) else BitVec.ofNat 32 (e.val - 32000000)

/-- The feature matrix, the two weight matrices and the two biases, by coordinates. -/
def xF (a0 : (⟨2, ![1000000, 2]⟩ : Shape).Idx → EReal) : Fin Nn → Fin 2 → EReal := fun n j => a0 (ij n j)
def W1F (a2 : (⟨2, ![2, 8]⟩ : Shape).Idx → EReal) : Fin 2 → Fin 8 → EReal := fun j k => a2 (ij j k)
def b1F (a3 : (⟨1, ![8]⟩ : Shape).Idx → EReal) : Fin 8 → EReal := fun k => a3 (Shape.Idx.ofFin k)
def W2F (a4 : (⟨2, ![8, 1]⟩ : Shape).Idx → EReal) : Fin 8 → EReal := fun k => a4 (ixP k)
def b2F (a5 : (⟨1, ![1]⟩ : Shape).Idx → EReal) : EReal := a5 (Shape.Idx.ofFin (0 : Fin 1))

end Cert.Spec

end
-- ==== Proof.PreFacts.lean ====
import proofs.«410824_j56633438765476_3_alg».proof.Pre_finite_inputs
import Idealize.ShloMosaic.Lib.StableHlo.Predicate
import Idealize.ShloMosaic.Lib.ReduceAll
import Idealize.ShloMosaic.Lib.Affine
import Idealize.ShloMosaic.PureOps.Ideal

/-!
  The precondition read back. The printed predicate is a conjunction of six "all entries" claims: five say that every
  entry of a float array has absolute value below +∞, that is, is a real number; the sixth says that every entry of
  row 0 of the integer array, read as a signed word, lies in [0, 1000000).
-/

namespace Cert.PreFacts

open Idealize.ShloMosaic Idealize.ShloMosaic.StableHlo.Predicate Cert.Pre_finite_inputs

/-- The rank-0 shape has one index. -/
instance : Subsingleton S_.Idx := ⟨fun a b => funext fun d => d.elim0⟩

/-- The one index of the rank-0 shape. -/
abbrev i0 : S_.Idx := fun a => a.elim0

/-- An extended real whose absolute value max x (-x) is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  simp only [Ideal.cmp, ofBool_eq_one_iff, decide_eq_true_eq] at h
  induction x using EReal.rec with
  | bot => simp at h
  | coe r => exact ⟨r, rfl⟩
  | top => simp at h

/-- "All entries of |a| are below +∞" (a reduce-and of the comparison against the broadcast +∞ pattern, equal to 1)
    says every entry of a is a real number. -/
theorem real_of_all {s : Shape} {axes : List (Fin s.rank)} (hb : S_.BroadcastsInDim s (![] : Fin 0 → Fin s.rank))
    (hr : s.ReducesTo axes S_) (h0 : 0 < S_.numel) (a : FVec Ideal s .f32)
    (h : Host.reduce IntOp.andi
          (cmpf .olt (Host.absf a) (broadcastInDim s ![] hb (constant S_ .f32 0x7F800000#32)))
          (constantI S_ 1 1#1) hr h0 i0 = 1#1) :
    ∀ i, ∃ r : ℝ, a i = (r : EReal) := by
  intro i
  have e := Host.reduce_andi_all _ _ hr h0 i0 h i
  exact real_of_abs_lt_top (a i) e

/-- Row 0 of the integer array, sliced out, flattened and read at position e, is the array at (0, e). -/
theorem read_row0 (hs : S2x32000000.Slices ![0, 0] S1x32000000) (hc : S1x32000000.ShapeCasts S32000000)
    (a1 : IVec S2x32000000 32) (e : Fin 32000000) :
    shapeCast S32000000 (extractStridedSlice S1x32000000 ![0, 0] a1 hs) hc (Shape.Idx.ofFin e) = a1 (ij (0 : Fin 2) e) := by
  unfold shapeCast
  rw [Shape.reshapeEquiv_cons_one (n := 1) (d := ![32000000]) hc (Shape.Idx.ofFin e)]
  unfold extractStridedSlice
  congr 1
  funext a
  match a with
  | ⟨0, _⟩ => exact Fin.ext rfl
  | ⟨1, _⟩ => exact Fin.ext (Nat.zero_add _)

/-- "All entries of row 0 are ≥ 0 and < 1000000 as signed words" (a reduce-and of the two comparisons' conjunction,
    equal to 1) read at each position of the row. -/
theorem row0_of_all (hs : S2x32000000.Slices ![0, 0] S1x32000000) (hc : S1x32000000.ShapeCasts S32000000)
    (hb : S_.BroadcastsInDim S32000000 (![] : Fin 0 → Fin S32000000.rank)) (hr : S32000000.ReducesTo [0] S_)
    (h0 : 0 < S_.numel) (a1 : IVec S2x32000000 32)
    (h : Host.reduce IntOp.andi
          (andi (cmpi .sge (shapeCast S32000000 (extractStridedSlice S1x32000000 ![0, 0] a1 hs) hc)
                   (broadcastInDim S32000000 ![] hb (constantI S_ 32 0#32)))
                (cmpi .slt (shapeCast S32000000 (extractStridedSlice S1x32000000 ![0, 0] a1 hs) hc)
                   (broadcastInDim S32000000 ![] hb (constantI S_ 32 1000000#32))))
          (constantI S_ 1 1#1) hr h0 i0 = 1#1) :
    ∀ e : Fin 32000000, 0 ≤ (a1 (ij (0 : Fin 2) e)).toInt ∧ (a1 (ij (0 : Fin 2) e)).toInt < 1000000 := by
  intro e
  have h1 := Host.reduce_andi_all _ _ hr h0 i0 h (Shape.Idx.ofFin e)
  obtain ⟨hge, hlt⟩ := IntOp.andi_eq_one.1 h1
  have hge' : IntOp.cmpi .sge (a1 (ij (0 : Fin 2) e)) 0#32 = 1#1 := by
    rw [← read_row0 hs hc a1 e]; exact hge
  have hlt' : IntOp.cmpi .slt (a1 (ij (0 : Fin 2) e)) 1000000#32 = 1#1 := by
    rw [← read_row0 hs hc a1 e]; exact hlt
  rw [IntOp.cmpi_sge] at hge'
  rw [IntOp.cmpi_slt] at hlt'
  have z : (0#32 : BitVec 32).toInt = 0 := by decide
  have m : (1000000#32 : BitVec 32).toInt = 1000000 := by decide
  rw [z] at hge'
  rw [m] at hlt'
  exact ⟨hge', hlt'⟩

/-- The precondition decoded: every float input entry is a real number, and row 0 of the integer input lies in
    [0, 1000000) as signed words. -/
theorem of_pre [Cert.Pre_finite_inputs.Facts]
    (a0 : FVec Ideal S1000000x2 .f32) (a1 : IVec S2x32000000 32) (a2 : FVec Ideal S2x8 .f32) (a3 : FVec Ideal S8 .f32)
    (a4 : FVec Ideal S8x1 .f32) (a5 : FVec Ideal S1 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal))
    ∧ (∀ e : Fin 32000000, 0 ≤ (a1 (ij (0 : Fin 2) e)).toInt ∧ (a1 (ij (0 : Fin 2) e)).toInt < 1000000) := by
  have h' := congrFun h i0
  dsimp only [Cert.Pre_finite_inputs.fn, Cert.Pre_finite_inputs.fn_part1] at h'
  obtain ⟨h', c6⟩ := IntOp.andi_eq_one.1 h'
  obtain ⟨h', c5⟩ := IntOp.andi_eq_one.1 h'
  obtain ⟨h', c4⟩ := IntOp.andi_eq_one.1 h'
  obtain ⟨h', c3⟩ := IntOp.andi_eq_one.1 h'
  obtain ⟨c1, c2⟩ := IntOp.andi_eq_one.1 h'
  exact ⟨real_of_all _ _ _ a0 c1, real_of_all _ _ _ a2 c2, real_of_all _ _ _ a3 c3, real_of_all _ _ _ a4 c4,
    real_of_all _ _ _ a5 c5, row0_of_all _ _ _ _ _ a1 c6⟩

end Cert.PreFacts
-- ==== Proof.Law.lean ====
import Mathlib.Data.EReal.Basic
import Mathlib.Data.EReal.Operations
import Mathlib.Algebra.BigOperators.Ring.Finset
import Mathlib.Algebra.BigOperators.Group.Finset.Sigma
import Mathlib.Tactic.Ring

/-!
# Distributivity of the degree normalisation over an edge aggregation

Over the reals, scaling by `D` before gathering and after aggregating,
`D n * ∑_{e ↦ n} D (s e) * h (s e)`, agrees with multiplying every edge message by the
edge norm `D (s e) * D (d' e)` (where `d' e = n` for every edge landing on `n`), by
distributivity and commutativity.  In the extended reals distributivity fails at the
infinities, so the laws below are stated for entries that are coercions of reals: both
sides are then coercions of real expressions and the identity is the real one.
-/

open scoped BigOperators

namespace Cert.Law

/-- An extended real is *real* when it is the coercion of a real number. -/
def IsReal (a : EReal) : Prop := ∃ r : ℝ, a = (r : EReal)

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.max {a b : EReal} (ha : IsReal a) (hb : IsReal b) : IsReal (max a b) := by
  obtain ⟨r, rfl⟩ := ha
  obtain ⟨t, rfl⟩ := hb
  exact ⟨Max.max r t, (EReal.coe_strictMono.monotone.map_max).symm⟩

/-- The coercion of a finite real sum is the sum of the coercions. -/
theorem coe_sum {ε : Type} (S : Finset ε) (f : ε → ℝ) :
    ((∑ e ∈ S, f e : ℝ) : EReal) = ∑ e ∈ S, (f e : EReal) := by
  classical
  induction S using Finset.induction_on with
  | empty => simp
  | insert a T ha ih => rw [Finset.sum_insert ha, Finset.sum_insert ha, EReal.coe_add, ih]

theorem IsReal.sum {ε : Type} (S : Finset ε) (f : ε → EReal) (hf : ∀ e ∈ S, IsReal (f e)) :
    IsReal (∑ e ∈ S, f e) := by
  classical
  induction S using Finset.induction_on with
  | empty => simpa using IsReal.zero
  | insert a T ha ih =>
    rw [Finset.sum_insert ha]
    exact IsReal.add (hf a (Finset.mem_insert_self a T))
      (ih fun e he => hf e (Finset.mem_insert_of_mem he))

/-- layer 1: scale-aggregate-transform against transform-scale-aggregate. -/
theorem layer1 {ι ε J : Type} [Fintype J] (S : Finset ε) (s d' : ε → ι) (n : ι)
    (hd : ∀ e ∈ S, d' e = n)
    (x : ι → J → EReal) (hx : ∀ i j, IsReal (x i j)) (W : J → EReal) (hW : ∀ j, IsReal (W j))
    (D : ι → EReal) (hD : ∀ i, IsReal (D i)) :
    D n * ∑ j, (∑ e ∈ S, x (s e) j * D (s e)) * W j
      = ∑ e ∈ S, (∑ j, x (s e) j * W j) * (D (s e) * D (d' e)) := by
  -- every edge of `S` lands on `n`
  have hR : ∑ e ∈ S, (∑ j, x (s e) j * W j) * (D (s e) * D (d' e))
      = ∑ e ∈ S, (∑ j, x (s e) j * W j) * (D (s e) * D n) :=
    Finset.sum_congr rfl fun e he => by rw [hd e he]
  rw [hR]
  -- real witnesses for every entry
  choose xr hxr using hx
  choose Wr hWr using hW
  choose Dr hDr using hD
  -- both sides are coercions of real expressions
  have hL : D n * ∑ j, (∑ e ∈ S, x (s e) j * D (s e)) * W j
      = ((Dr n * ∑ j, (∑ e ∈ S, xr (s e) j * Dr (s e)) * Wr j : ℝ) : EReal) := by
    simp only [hxr, hWr, hDr, EReal.coe_mul, coe_sum]
  have hR' : ∑ e ∈ S, (∑ j, x (s e) j * W j) * (D (s e) * D n)
      = ((∑ e ∈ S, (∑ j, xr (s e) j * Wr j) * (Dr (s e) * Dr n) : ℝ) : EReal) := by
    simp only [hxr, hWr, hDr, EReal.coe_mul, coe_sum]
  rw [hL, hR']
  congr 1
  -- the identity over the reals: distribute, exchange the two sums, compare termwise
  simp only [Finset.mul_sum, Finset.sum_mul]
  rw [Finset.sum_comm]
  refine Finset.sum_congr rfl fun e _ => Finset.sum_congr rfl fun j _ => ?_
  ring

/-- layer 2: the same with an already-transformed one-column feature g. -/
theorem layer2 {ι ε : Type} (S : Finset ε) (s d' : ε → ι) (n : ι) (hd : ∀ e ∈ S, d' e = n)
    (g : ι → EReal) (hg : ∀ i, IsReal (g i)) (D : ι → EReal) (hD : ∀ i, IsReal (D i)) :
    D n * ∑ e ∈ S, D (s e) * g (s e) = ∑ e ∈ S, g (s e) * (D (s e) * D (d' e)) := by
  -- every edge of `S` lands on `n`
  have hR : ∑ e ∈ S, g (s e) * (D (s e) * D (d' e))
      = ∑ e ∈ S, g (s e) * (D (s e) * D n) :=
    Finset.sum_congr rfl fun e he => by rw [hd e he]
  rw [hR]
  choose gr hgr using hg
  choose Dr hDr using hD
  have hL : D n * ∑ e ∈ S, D (s e) * g (s e)
      = ((Dr n * ∑ e ∈ S, Dr (s e) * gr (s e) : ℝ) : EReal) := by
    simp only [hgr, hDr, EReal.coe_mul, coe_sum]
  have hR' : ∑ e ∈ S, g (s e) * (D (s e) * D n)
      = ((∑ e ∈ S, gr (s e) * (Dr (s e) * Dr n) : ℝ) : EReal) := by
    simp only [hgr, hDr, EReal.coe_mul, coe_sum]
  rw [hL, hR']
  congr 1
  rw [Finset.mul_sum]
  refine Finset.sum_congr rfl fun e _ => ?_
  ring

end Cert.Law
-- ==== Proof.Bridge.lean ====
import proofs.«410824_j56633438765476_3_alg».proof.Proof.Spec
import proofs.«410824_j56633438765476_3_alg».proof.Proof.Law

/-!
# The two results agree when every entry is real

For an edge landing on node `n` the target word, read signed, is `n`: it is non-negative and
below the node count, so the wrap leaves it alone and the clamp does nothing; the row it reads is
`n` itself.  The edge norm of such an edge is therefore `D (source) * D n`, and the two
distributivity laws over real entries turn the split normalisation into the per-edge one, first
under the hidden layer and then under the output layer.
-/

namespace Cert.Bridge

open Cert.Spec Cert.Law
open Idealize.ShloMosaic Idealize.ShloMosaic.StableHlo.Predicate

/-- A word whose signed value is a node number reads that node's row. -/
theorem gidx_of_toInt {v : BitVec 32} {n : Fin Nn} (h : v.toInt = (n.val : ℤ)) : gidx v = n := by
  have hn : n.val < 1000000 := n.isLt
  -- the word is not negative, so it is not wrapped
  have hlt : ¬ (IntOp.cmpi .slt v 0#32 = 1#1) := by
    unfold IntOp.cmpi
    rw [ofBool_eq_one_iff]
    simp only [BitVec.slt, h, decide_eq_true_eq]
    simp
  have hw : wrap v = v := by unfold wrap; rw [if_neg hlt]
  -- and the clamp does nothing below the node count
  apply Fin.ext
  show min (wrap v).toInt.toNat 999999 = n.val
  rw [hw, h, Int.toNat_natCast]
  omega

/-- The target of an edge landing on `n` reads row `n`. -/
theorem gidx_of_lands (dst : Fin Ne → BitVec 32) (n : Fin Nn) (e : Fin Ne) (he : e ∈ lands dst n) :
    gidx (dst e) = n :=
  gidx_of_toInt (Finset.mem_filter.mp he).2

theorem outK_eq_outR (x : Fin Nn → Fin 2 → EReal) (W1 : Fin 2 → Fin 8 → EReal) (b1 : Fin 8 → EReal)
    (W2 : Fin 8 → EReal) (b2 : EReal)
    (D : Fin Nn → EReal) (src dst : Fin Ne → BitVec 32)
    (hx : ∀ n j, IsReal (x n j)) (hW1 : ∀ j k, IsReal (W1 j k)) (hb1 : ∀ k, IsReal (b1 k))
    (hW2 : ∀ k, IsReal (W2 k))
    (hD : ∀ n, IsReal (D n)) (n : Fin Nn) :
    outK x W1 b1 W2 b2 D src dst n = outR x W1 b1 W2 b2 D src dst n := by
  -- every edge landing on a node has that node as the row its target reads
  have hdst : ∀ (m : Fin Nn), ∀ e ∈ lands dst m, gidx (dst e) = m :=
    fun m e he => gidx_of_lands dst m e he
  -- layer 1: the pre-activation of the hidden layer, column by column
  have h1 : ∀ (m : Fin Nn) (k : Fin 8),
      D m * ∑ j : Fin 2, aggK x D src dst m j * W1 j k
        = ∑ e ∈ lands dst m, (∑ j : Fin 2, x (gidx (src e)) j * W1 j k) * nrm D src dst e := by
    intro m k
    exact layer1 (lands dst m) (fun e => gidx (src e)) (fun e => gidx (dst e)) m (hdst m) x hx
      (fun j => W1 j k) (fun j => hW1 j k) D hD
  -- hence the hidden layers agree
  have hhid : ∀ (m : Fin Nn) (k : Fin 8),
      hidK x W1 b1 D src dst m k = hidR x W1 b1 D src dst m k := by
    intro m k
    unfold hidK hidR
    rw [h1 m k]
  -- hence the pre-scaled second transform is the node's scale times the second transform
  have hs2 : ∀ m : Fin Nn,
      hs2K x W1 b1 W2 D src dst m = D m * h2R x W1 b1 W2 D src dst m := by
    intro m
    unfold hs2K h2R
    simp only [hhid]
  -- the second transform is real
  have hnrm : ∀ e : Fin Ne, IsReal (nrm D src dst e) := fun e => IsReal.mul (hD _) (hD _)
  have hhidR : ∀ (m : Fin Nn) (k : Fin 8), IsReal (hidR x W1 b1 D src dst m k) := by
    intro m k
    unfold hidR
    exact IsReal.max
      (IsReal.add
        (IsReal.sum _ _ fun e _ =>
          IsReal.mul (IsReal.sum _ _ fun j _ => IsReal.mul (hx _ _) (hW1 _ _)) (hnrm e))
        (hb1 k))
      IsReal.zero
  have hh2 : ∀ m : Fin Nn, IsReal (h2R x W1 b1 W2 D src dst m) := by
    intro m
    unfold h2R
    exact IsReal.sum _ _ fun k _ => IsReal.mul (hhidR m k) (hW2 k)
  -- layer 2: the output layer's pre-activation
  have h2 : D n * ∑ e ∈ lands dst n, D (gidx (src e)) * h2R x W1 b1 W2 D src dst (gidx (src e))
      = ∑ e ∈ lands dst n, h2R x W1 b1 W2 D src dst (gidx (src e)) * nrm D src dst e :=
    layer2 (lands dst n) (fun e => gidx (src e)) (fun e => gidx (dst e)) n (hdst n)
      (h2R x W1 b1 W2 D src dst) hh2 D hD
  unfold outK outR
  simp only [hs2]
  rw [h2]

end Cert.Bridge
-- ==== Proof.KReg0.lean ====
/-
  The first dense node-wise stage, block by block, over the extended reals.

  The region sweeps 200 grid points; point `t` reads rows `5000 t … 5000 t + 4999` of the aggregated features
  (`[1000000, 2]`) and of the degree normalisation (`[1000000, 1]`), reads the weights `W1` (`[2, 8]`), the shift
  `b1` (`[1, 8]`) and the weights `W2` (`[8, 1]`) whole, and writes the same rows of the result (`[1000000, 1]`).
  On row `p` of its block the body computes

      D p * Σ_k max (D p * (Σ_j A p j * W1 j k) + b1 k) 0 * W2 k,

  two contractions (over the 2 features, over the 8 hidden units), a column broadcast along the lanes, one row broadcast
  over the rows, a rectification, and two products by the row's scale. Here: that value at a row (`pay_apply`), the
  same against the whole-array function `Cert.Spec.L1` (`point_eq`), each window's block as rows of its array
  (`blk_features` … `blk_weights2`), what a point writes back (`flushed_eq`), the blocks covering every row
  (`cover`), and the array after all points (`final0`): `L1` of the region's input arrays as the region finds them.
-/
import proofs.«410824_j56633438765476_3_alg».proof.Proof.Gen.KernelIdeal.Frame
import proofs.«410824_j56633438765476_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Cert.KernelIdeal Cert.KernelIdeal.Gen Cert.Spec Idealize.ShloMosaic Idealize.ShloMosaic.TcCoe Idealize.SL.Sem
open Idealize.ShloMosaic.Pipeline (Dat)
open Idealize.ShloMosaic.ValueIdx
open Idealize.ShloMosaic.StableHlo.Predicate (ij ixP)

/-! ## The two contractions of the body, read at an index -/

theorem lhs_first_0 (i : S5000x8.Idx) (q : dot_S5000x2_S2x8_S5000x8_1_0_0_1_n_n.contr.Idx) :
    (dot_S5000x2_S2x8_S5000x8_1_0_0_1_n_n.lhsIdx i q 0).val = (i 0).val := by
  unfold DotDims.lhsIdx
  rw [dif_neg (show ¬(0 : Fin S5000x2.rank) ∈ dot_S5000x2_S2x8_S5000x8_1_0_0_1_n_n.lhsBatch by decide), dif_pos (show (0 : Fin S5000x2.rank) ∈ dot_S5000x2_S2x8_S5000x8_1_0_0_1_n_n.lhsNonContracting by decide)]
  rfl
theorem lhs_first_1 (i : S5000x8.Idx) (q : dot_S5000x2_S2x8_S5000x8_1_0_0_1_n_n.contr.Idx) :
    (dot_S5000x2_S2x8_S5000x8_1_0_0_1_n_n.lhsIdx i q 1).val = (q ⟨0, by decide⟩).val :=
  dot_S5000x2_S2x8_S5000x8_1_0_0_1_n_n.lhsIdx_val_of_single rfl i q
theorem rhs_first_0 (i : S5000x8.Idx) (q : dot_S5000x2_S2x8_S5000x8_1_0_0_1_n_n.contr.Idx) :
    (dot_S5000x2_S2x8_S5000x8_1_0_0_1_n_n.rhsIdx i q 0).val = (q ⟨0, by decide⟩).val :=
  dot_S5000x2_S2x8_S5000x8_1_0_0_1_n_n.rhsIdx_val_of_single rfl i q
theorem rhs_first_1 (i : S5000x8.Idx) (q : dot_S5000x2_S2x8_S5000x8_1_0_0_1_n_n.contr.Idx) :
    (dot_S5000x2_S2x8_S5000x8_1_0_0_1_n_n.rhsIdx i q 1).val = (i 1).val := by
  unfold DotDims.rhsIdx
  rw [dif_neg (show ¬(1 : Fin S2x8.rank) ∈ dot_S5000x2_S2x8_S5000x8_1_0_0_1_n_n.rhsBatch by decide), dif_pos (show (1 : Fin S2x8.rank) ∈ dot_S5000x2_S2x8_S5000x8_1_0_0_1_n_n.rhsNonContracting by decide)]
  rfl

/-- The first contraction at row `p`, column `k`: the row of the left operand against the column of the right. -/
theorem first_apply (a : FVec Ideal S5000x2 .bf16) (b : FVec Ideal S2x8 .bf16) (p : Fin 5000) (k : Fin 8) :
    matmul dot_S5000x2_S2x8_S5000x8_1_0_0_1_n_n none a b (constant S5000x8 .f32 0x00000000#32) (ix2 p k)
      = ∑ j : Fin 2, a (ix2 p j) * b (ix2 j k) := by
  simp only [matmul]
  rw [Ideal.matmul_constant_zero_apply, ← Equiv.sum_comp (contrEquiv1 dot_S5000x2_S2x8_S5000x8_1_0_0_1_n_n 2 rfl rfl).symm]
  refine Finset.sum_congr rfl fun j _ => ?_
  have hj := contrEquiv1_symm_val dot_S5000x2_S2x8_S5000x8_1_0_0_1_n_n 2 rfl rfl j
  have el : dot_S5000x2_S2x8_S5000x8_1_0_0_1_n_n.lhsIdx (ix2 p k) ((contrEquiv1 dot_S5000x2_S2x8_S5000x8_1_0_0_1_n_n 2 rfl rfl).symm j) = ix2 p j := funext fun a => Fin.ext (by
    match a with
    | ⟨0, _⟩ => exact lhs_first_0 _ _
    | ⟨1, _⟩ => exact (lhs_first_1 _ _).trans hj)
  have er : dot_S5000x2_S2x8_S5000x8_1_0_0_1_n_n.rhsIdx (ix2 p k) ((contrEquiv1 dot_S5000x2_S2x8_S5000x8_1_0_0_1_n_n 2 rfl rfl).symm j) = ix2 j k := funext fun a => Fin.ext (by
    match a with
    | ⟨0, _⟩ => exact (rhs_first_0 _ _).trans hj
    | ⟨1, _⟩ => exact rhs_first_1 _ _)
  rw [el, er]

theorem lhs_second_0 (i : S5000x1.Idx) (q : dot_S5000x8_S8x1_S5000x1_1_0_0_1_n_n.contr.Idx) :
    (dot_S5000x8_S8x1_S5000x1_1_0_0_1_n_n.lhsIdx i q 0).val = (i 0).val := by
  unfold DotDims.lhsIdx
  rw [dif_neg (show ¬(0 : Fin S5000x8.rank) ∈ dot_S5000x8_S8x1_S5000x1_1_0_0_1_n_n.lhsBatch by decide), dif_pos (show (0 : Fin S5000x8.rank) ∈ dot_S5000x8_S8x1_S5000x1_1_0_0_1_n_n.lhsNonContracting by decide)]
  rfl
theorem lhs_second_1 (i : S5000x1.Idx) (q : dot_S5000x8_S8x1_S5000x1_1_0_0_1_n_n.contr.Idx) :
    (dot_S5000x8_S8x1_S5000x1_1_0_0_1_n_n.lhsIdx i q 1).val = (q ⟨0, by decide⟩).val :=
  dot_S5000x8_S8x1_S5000x1_1_0_0_1_n_n.lhsIdx_val_of_single rfl i q
theorem rhs_second_0 (i : S5000x1.Idx) (q : dot_S5000x8_S8x1_S5000x1_1_0_0_1_n_n.contr.Idx) :
    (dot_S5000x8_S8x1_S5000x1_1_0_0_1_n_n.rhsIdx i q 0).val = (q ⟨0, by decide⟩).val :=
  dot_S5000x8_S8x1_S5000x1_1_0_0_1_n_n.rhsIdx_val_of_single rfl i q
theorem rhs_second_1 (i : S5000x1.Idx) (q : dot_S5000x8_S8x1_S5000x1_1_0_0_1_n_n.contr.Idx) :
    (dot_S5000x8_S8x1_S5000x1_1_0_0_1_n_n.rhsIdx i q 1).val = (i 1).val := by
  unfold DotDims.rhsIdx
  rw [dif_neg (show ¬(1 : Fin S8x1.rank) ∈ dot_S5000x8_S8x1_S5000x1_1_0_0_1_n_n.rhsBatch by decide), dif_pos (show (1 : Fin S8x1.rank) ∈ dot_S5000x8_S8x1_S5000x1_1_0_0_1_n_n.rhsNonContracting by decide)]
  rfl

/-- The second contraction at row `p`: the row of the left operand against the right operand's one column. -/
theorem second_apply (a : FVec Ideal S5000x8 .bf16) (b : FVec Ideal S8x1 .bf16) (p : Fin 5000) :
    matmul dot_S5000x8_S8x1_S5000x1_1_0_0_1_n_n none a b (constant S5000x1 .f32 0x00000000#32) (ix2 p (0 : Fin 1))
      = ∑ k : Fin 8, a (ix2 p k) * b (ix2 k (0 : Fin 1)) := by
  simp only [matmul]
  rw [Ideal.matmul_constant_zero_apply, ← Equiv.sum_comp (contrEquiv1 dot_S5000x8_S8x1_S5000x1_1_0_0_1_n_n 8 rfl rfl).symm]
  refine Finset.sum_congr rfl fun k _ => ?_
  have hk := contrEquiv1_symm_val dot_S5000x8_S8x1_S5000x1_1_0_0_1_n_n 8 rfl rfl k
  have el : dot_S5000x8_S8x1_S5000x1_1_0_0_1_n_n.lhsIdx (ix2 p (0 : Fin 1)) ((contrEquiv1 dot_S5000x8_S8x1_S5000x1_1_0_0_1_n_n 8 rfl rfl).symm k) = ix2 p k := funext fun a => Fin.ext (by
    match a with
    | ⟨0, _⟩ => exact lhs_second_0 _ _
    | ⟨1, _⟩ => exact (lhs_second_1 _ _).trans hk)
  have er : dot_S5000x8_S8x1_S5000x1_1_0_0_1_n_n.rhsIdx (ix2 p (0 : Fin 1)) ((contrEquiv1 dot_S5000x8_S8x1_S5000x1_1_0_0_1_n_n 8 rfl rfl).symm k) = ix2 k (0 : Fin 1) := funext fun a => Fin.ext (by
    match a with
    | ⟨0, _⟩ => exact (rhs_second_0 _ _).trans hk
    | ⟨1, _⟩ => exact rhs_second_1 _ _)
  rw [el, er]

/-! ## The two broadcasts of the body, read at an index -/

/-- A column broadcast along the rows' lanes reads, at `(p, k)`, the column at `p`. -/
theorem bcast_col_apply (v : FVec Ideal S5000x1 .f32) (p : Fin 5000) (k : Fin 8) :
    broadcastTo S5000x8 v broadcasts_S5000x1_S5000x8 (ix2 p k) = v (ix2 p (0 : Fin 1)) := by
  refine broadcastTo_apply v broadcasts_S5000x1_S5000x8 (ix2 p k) (ix2 p (0 : Fin 1)) fun ax => ?_
  match ax with
  | ⟨0, _⟩ => rfl
  | ⟨1, _⟩ => rfl

/-- One row broadcast over all rows reads, at `(p, k)`, the row at `k`. -/
theorem bcast_row_apply (v : FVec Ideal S1x8 .f32) (p : Fin 5000) (k : Fin 8) :
    broadcastTo S5000x8 v broadcasts_S1x8_S5000x8 (ix2 p k) = v (ix2 (0 : Fin 1) k) :=
  broadcastTo_1b_ab_apply v broadcasts_S1x8_S5000x8 p k

/-! ## The body's result at a row -/

/-- Row `p` of the body's result: the row's scale times the second layer of the rectified, scaled and shifted first layer. -/
theorem pay_apply (x0 : Vec Ideal S5000x2 .f32) (x3 : Vec Ideal S2x8 .f32) (x6 : Vec Ideal S5000x1 .f32)
    (x10 : Vec Ideal S1x8 .f32) (x16 : Vec Ideal S8x1 .f32) (p : Fin 5000) :
    k0_pay1 x0 x3 x6 x10 x16 (ix2 p (0 : Fin 1))
      = x6 (ix2 p (0 : Fin 1)) * ∑ k : Fin 8,
          max (x6 (ix2 p (0 : Fin 1)) * (∑ j : Fin 2, x0 (ix2 p j) * x3 (ix2 j k)) + x10 (ix2 (0 : Fin 1) k)) 0 * x16 (ix2 k (0 : Fin 1)) := by
  unfold k0_pay1
  rw [mulf_apply, second_apply, shapeCast_self]
  refine congrArg (x6 (ix2 p (0 : Fin 1)) * ·) (Finset.sum_congr rfl fun k _ => ?_)
  rw [truncf_apply, truncf_apply, maximumf_apply, addf_apply, mulf_apply, bcast_col_apply, bcast_row_apply, first_apply,
    shapeCast_self, shapeCast_self, broadcast_apply]
  simp only [truncf_apply]
  show max _ (Ideal.ofBits .f32 0x00000000#32) * _ = _
  rw [Ideal.ofBits_zero_f32]

/-! ## A point's arithmetic against the whole-array function -/

/-- The body at row `y` of a block is `L1` at row `i` of the array, when the block's rows of the features and of the
    scale are the array's rows at `i` and the three small operands are read whole. -/
theorem point_eq (x0 : Vec Ideal S5000x2 .f32) (x3 : Vec Ideal S2x8 .f32) (x6 : Vec Ideal S5000x1 .f32)
    (x10 : Vec Ideal S1x8 .f32) (x16 : Vec Ideal S8x1 .f32)
    (A : S1000000x2.Idx → EReal) (Dv : S1000000x1.Idx → EReal) (W1 : S2x8.Idx → EReal) (B1 : S1x8.Idx → EReal)
    (W2 : S8x1.Idx → EReal) (y : S5000x1.Idx) (i : S1000000x1.Idx)
    (h0 : ∀ j : Fin 2, x0 (ix2 (y 0) j) = A (ij (i 0) j))
    (h6 : x6 (ix2 (y 0) (0 : Fin 1)) = Dv (ixP (i 0)))
    (h3 : ∀ (j : Fin 2) (k : Fin 8), x3 (ix2 j k) = W1 (ij j k))
    (h10 : ∀ k : Fin 8, x10 (ix2 (0 : Fin 1) k) = B1 (ij (0 : Fin 1) k))
    (h16 : ∀ k : Fin 8, x16 (ix2 k (0 : Fin 1)) = W2 (ixP k)) :
    k0_pay1 x0 x3 x6 x10 x16 y = L1 A Dv W1 B1 W2 i := by
  obtain ⟨p, q, rfl⟩ : ∃ (p : Fin 5000) (q : Fin 1), y = ix2 p q := ⟨y 0, y 1, eq_ix2 y⟩
  obtain rfl : q = 0 := Subsingleton.elim _ _
  have h0' : ∀ j : Fin 2, x0 (ix2 p j) = A (ij (i 0) j) := h0
  have h6' : x6 (ix2 p (0 : Fin 1)) = Dv (ixP (i 0)) := h6
  rw [pay_apply]
  unfold L1
  simp only [h0', h6', h3, h10, h16]

/-! ## The grid's index maps -/

theorem hz : (![0, 0] : Fin 2 → Nat) = fun _ => 0 := funext fun a => by fin_cases a <;> rfl

/-- The printed index maps, decided over the grid: the output's, the features' and the scale's block at point `t` is
    block `t` of the rows; the three small operands are read whole. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-! ## Each window's block at a point, read off its array -/

/-- The features' block at point `t` holds rows `5000 t … 5000 t + 4999` of the array. -/
theorem blk_features (c : Dev nD) (t : Fin cfg0.N) (p : Fin 5000) (j : Fin 2) (i : S1000000x1.Idx)
    (hi : (i 0).val = t.val * 5000 + p.val) :
    (iblk0 V c 0 t : Vec Ideal S5000x2 .f32) (ix2 p j) = (V c main_v23 : S1000000x2.Idx → EReal) (ij (i 0) j) := by
  obtain ⟨-, -, e0, e1, -⟩ := idx_facts t
  unfold iblk0
  rw [View.read_apply]
  show V c main_v23 _ = V c main_v23 _
  congr 1
  funext a
  apply Fin.ext
  match a with
  | ⟨0, _⟩ => show win0_0.index t (0 : Fin 2) * 5000 + 1 * p.val = (i 0).val; rw [e0, hi]; omega
  | ⟨1, _⟩ => show win0_0.index t (1 : Fin 2) * 2 + 1 * j.val = j.val; rw [e1]; omega

/-- The scale's block at point `t` holds rows `5000 t … 5000 t + 4999` of the column. -/
theorem blk_scale (c : Dev nD) (t : Fin cfg0.N) (p : Fin 5000) (i : S1000000x1.Idx)
    (hi : (i 0).val = t.val * 5000 + p.val) :
    (iblk0 V c 1 t : Vec Ideal S5000x1 .f32) (ix2 p (0 : Fin 1)) = (V c main_v17 : S1000000x1.Idx → EReal) (ixP (i 0)) := by
  obtain ⟨-, -, -, -, e0, e1, -⟩ := idx_facts t
  unfold iblk0
  rw [View.read_apply]
  show V c main_v17 _ = V c main_v17 _
  congr 1
  funext a
  apply Fin.ext
  match a with
  | ⟨0, _⟩ => show win0_1.index t (0 : Fin 2) * 5000 + 1 * p.val = (i 0).val; rw [e0, hi]; omega
  | ⟨1, _⟩ => show win0_1.index t (1 : Fin 2) * 1 + 1 * 0 = 0; rw [e1]

/-- The first layer's weights are read whole at every point. -/
theorem blk_weights1 (c : Dev nD) (t : Fin cfg0.N) (j : Fin 2) (k : Fin 8) :
    (iblk0 V c 2 t : Vec Ideal S2x8 .f32) (ix2 j k) = (V c main_arg2 : S2x8.Idx → EReal) (ij j k) := by
  obtain ⟨-, -, -, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 2 + 1 * j.val = j.val; rw [e0]; omega
  | ⟨1, _⟩ => show win0_2.index t (1 : Fin 2) * 8 + 1 * k.val = k.val; rw [e1]; omega

/-- The first layer's shift is read whole at every point. -/
theorem blk_shift1 (c : Dev nD) (t : Fin cfg0.N) (k : Fin 8) :
    (iblk0 V c 3 t : Vec Ideal S1x8 .f32) (ix2 (0 : Fin 1) k) = (V c main_v24 : S1x8.Idx → EReal) (ij (0 : Fin 1) k) := by
  obtain ⟨-, -, -, -, -, -, -, -, e0, e1, -⟩ := idx_facts t
  unfold iblk0
  rw [View.read_apply]
  show V c main_v24 _ = V c main_v24 _
  congr 1
  funext a
  apply Fin.ext
  match a with
  | ⟨0, _⟩ => show win0_3.index t (0 : Fin 2) * 1 + 1 * 0 = 0; rw [e0]
  | ⟨1, _⟩ => show win0_3.index t (1 : Fin 2) * 8 + 1 * k.val = k.val; rw [e1]; omega

/-- The second layer's weights are read whole at every point. -/
theorem blk_weights2 (c : Dev nD) (t : Fin cfg0.N) (k : Fin 8) :
    (iblk0 V c 4 t : Vec Ideal S8x1 .f32) (ix2 k (0 : Fin 1)) = (V c main_arg4 : S8x1.Idx → EReal) (ixP k) := by
  obtain ⟨-, -, -, -, -, -, -, -, -, -, e0, e1⟩ := idx_facts t
  unfold iblk0
  rw [View.read_apply]
  show V c main_arg4 _ = V c main_arg4 _
  congr 1
  funext a
  apply Fin.ext
  match a with
  | ⟨0, _⟩ => show win0_4.index t (0 : Fin 2) * 8 + 1 * k.val = k.val; rw [e0]; omega
  | ⟨1, _⟩ => show win0_4.index t (1 : Fin 2) * 1 + 1 * 0 = 0; rw [e1]

/-! ## What a point writes back -/

/-- Point `t` writes back block `t` of `L1` of the region's input arrays as entered. -/
theorem flushed_eq (c : Dev nD) (t : Fin cfg0.N) :
    (dat0 (F := Ideal) V c).flushed 5 t = ((cfg0.win 5).blk t).view.read (Elt Ideal)
      (L1 (V c main_v23) (V c main_v17) (V c main_arg2) (V c main_v24) (V c main_arg4)) := by
  show (cfg0.win 5).cut (grid0.coords t) ((dat0 (F := Ideal) V c).after 5 t) = _
  rw [after0_5]
  unfold out0_5
  rw [View.canon_unit_zero hz]
  simp only [View.ld_unit_zero (S := S5000x2) hz, View.ld_unit_zero (S := S2x8) hz, View.ld_unit_zero (S := S5000x1) hz,
    View.ld_unit_zero (S := S1x8) hz, View.ld_unit_zero (S := S8x1) hz]
  funext y
  have hi : ((((cfg0.win 5).blk t).view.emb y : S1000000x1.Idx) 0).val = t.val * 5000 + ((y : S5000x1.Idx) 0).val := by
    show win0_5.index t (0 : Fin 2) * 5000 + 1 * ((y : S5000x1.Idx) 0).val = _
    rw [(idx_facts t).1]; omega
  exact point_eq _ _ _ _ _ _ _ _ _ _ y (((cfg0.win 5).blk t).view.emb y)
    (fun j => blk_features V c t _ j _ hi) (blk_scale V c t _ _ hi) (blk_weights1 V c t) (blk_shift1 V c t) (blk_weights2 V c t)

/-! ## The blocks cover the array -/

/-- An index of the array is in point `t`'s block iff each coordinate is in the block's range on its axis. -/
theorem mem_blk (t : Fin cfg0.N) (i : S1000000x1.Idx) :
    i ∈ ((cfg0.win 5).blk t).view.set ↔ ∀ a : Fin 2, win0_5.index t a * S5000x1.size a ≤ (i a).val ∧ (i a).val < win0_5.index t a * S5000x1.size a + S5000x1.size a := by
  show i ∈ ((View.whole main_v25).slice (win0_5.rect t)).set ↔ _
  rw [View.set_slice_whole, Rect.mem_set_unit]
  exact Iff.rfl

/-- Row `r` of the array is in the block of point `r / 5000`: the 200 blocks of 5000 rows cover all 1000000 rows. -/
theorem cover (i : S1000000x1.Idx) :
    ∃ t : Fin cfg0.N, (cfg0.win 5).flush t = true ∧ i ∈ ((cfg0.win 5).blk t).view.set := by
  have hi0 : (i 0).val < 1000000 := (i 0).isLt
  have hi1 : (i 1).val < 1 := (i 1).isLt
  have hN : cfg0.N = 200 := N_0
  have ht : (i 0).val / 5000 < cfg0.N := by rw [hN]; omega
  obtain ⟨e0, e1, -⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 1 ≤ (i 1).val
      ∧ (i 1).val < win0_5.index ⟨(i 0).val / 5000, ht⟩ (1 : Fin 2) * 1 + 1
    rw [e1]
    omega

/-! ## The region's output array after all grid points -/

/-- After the region the output array is `L1` of the region's input arrays as entered. -/
theorem final0 (c : Dev nD) :
    (dat0 (F := Ideal) V c).arrAt 5 cfg0.N
      = L1 (V c main_v23) (V c main_v17) (V c main_arg2) (V c main_v24) (V c main_arg4) :=
  (dat0 (F := Ideal) V c).arrAt_eq_of_cover 5 _ (fun t _ => flushed_eq V c t) cover

end Cert.KernelIdeal.Reg0

end
-- ==== Proof.KReg1.lean ====
/-
  The second dense stage, as the value of its result array.

  The region sweeps 200 grid points; point t holds rows 5000 t … 5000 t + 4999 of three column arrays: the aggregate A,
  the degree normalisation D and the result. On each row the body computes the logistic function of D n * A n + b, with b
  the one-element bias array, and writes the block back. Every row r < 1000000 lies in the block of point r / 5000, so
  after the last point the result array is the whole-array function Cert.Spec.L2 of the three input arrays as the
  region found them.
-/
import proofs.«410824_j56633438765476_3_alg».proof.Proof.Gen.KernelIdeal.Frame
import proofs.«410824_j56633438765476_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Cert.Spec
open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.StableHlo.Predicate

variable (V : (c : Dev nD) → (b : Ref sig .tc) → Buf (Elt Ideal) ((c : Thread nD τ).loc b))

/-- The zero offsets of a whole-buffer access, however they are spelt. -/
theorem zero_offsets : (![0, 0] : Fin 2 → Nat) = fun _ => 0 := funext fun a => by fin_cases a <;> rfl

/-- The body's arithmetic at row p of a block: the logistic function of scale times aggregate plus the bias. -/
theorem pay_apply (x0 x2 : Vec Ideal S5000x1 .f32) (x5 : Vec Ideal S1x1 .f32) (p : Fin 5000) :
    k1_pay1 x0 x2 x5 (ix2 p 0) = Ideal.logistic (x2 (ix2 p 0) * x0 (ix2 p 0) + x5 (ix2 0 0)) := by
  unfold k1_pay1
  simp only [shapeCast_self]
  show Ideal.logistic (x2 (ix2 p 0) * x0 (ix2 p 0) + broadcastTo S5000x1 x5 broadcasts_S1x1_S5000x1 (ix2 p 0)) = _
  rw [broadcastTo_apply x5 broadcasts_S1x1_S5000x1 (ix2 p 0) (ix2 0 0) (fun a => by
    match a with
    | ⟨0, _⟩ => rfl
    | ⟨1, _⟩ => rfl)]

/-- One element of a block against the whole-array function: when the aggregate's and the scale's blocks hold row i 0
    of their arrays at j and the bias block holds the bias, the body's value at j is stage two at i. -/
theorem point_eq (A Dv : (⟨2, ![1000000, 1]⟩ : Shape).Idx → EReal) (B : (⟨2, ![1, 1]⟩ : Shape).Idx → EReal)
    (x0 x1 : Vec Ideal S5000x1 .f32) (x2 : Vec Ideal S1x1 .f32) (j : S5000x1.Idx) (i : (⟨2, ![1000000, 1]⟩ : Shape).Idx)
    (h0 : x0 j = A (ixP (i 0))) (h1 : x1 j = Dv (ixP (i 0))) (h2 : x2 (ix2 0 0) = B (ij (0 : Fin 1) (0 : Fin 1))) :
    k1_pay1 x0 x1 x2 j = L2 A Dv B i := by
  obtain ⟨p, q, rfl⟩ : ∃ (p : Fin 5000) (q : Fin 1), j = ix2 p q := ⟨j 0, j 1, eq_ix2 j⟩
  obtain rfl : q = 0 := Subsingleton.elim _ _
  rw [pay_apply, h0, h1, h2]
  rfl

/-- The printed index maps, decided once over the grid: the aggregate's, the scale's and the result's windows are at
    row block t and column block 0; the bias's window stays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of stage two of the region's input arrays as entered. -/
theorem flushed_eq (c : Dev nD) (t : Fin cfg1.N) :
    (dat1 (F := Ideal) V c).flushed 3 t
      = ((cfg1.win 3).blk t).view.read (Elt Ideal) (L2 (V c main_v29) (V c main_v17) (V c main_v30)) := by
  show (cfg1.win 3).cut (grid1.coords t) ((dat1 V c).after 3 t) = _
  rw [after1_3]
  unfold out1_3
  rw [View.canon_unit_zero zero_offsets]
  simp only [View.ld_unit_zero (S := S5000x1) zero_offsets, View.ld_unit_zero (S := S1x1) zero_offsets]
  obtain ⟨e0, e1, e2, e3, e4, e5, e6, e7⟩ := idx_facts t
  funext j
  show k1_pay1 (iblk1 V c 0 t) (iblk1 V c 1 t) (iblk1 V c 2 t) j
    = L2 (V c main_v29) (V c main_v17) (V c main_v30) (((cfg1.win 3).blk t).view.emb j)
  have hj0 : (j 0).val < 5000 := (j 0).isLt
  have hj1 : (j 1).val < 1 := (j 1).isLt
  refine point_eq (V c main_v29) (V c main_v17) (V c main_v30) _ _ _ j _ ?_ ?_ ?_
  · show V c main_v29 (((cfg1.win 0).blk t).view.emb j) = V c main_v29 _
    congr 1
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 1 + 1 * (j 1).val = 0; omega
  · show V c main_v17 (((cfg1.win 1).blk t).view.emb j) = V c main_v17 _
    congr 1
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * (j 1).val = 0; omega
  · show V c main_v30 (((cfg1.win 2).blk t).view.emb (ix2 0 0)) = V c main_v30 _
    congr 1
    funext a; apply Fin.ext
    match a with
    | ⟨0, _⟩ => show win1_2.index t (0 : Fin 2) * 1 + 1 * 0 = 0; omega
    | ⟨1, _⟩ => show win1_2.index t (1 : Fin 2) * 1 + 1 * 0 = 0; omega

/-- A row of the result array is in point t's block iff each coordinate is in the block's range on its axis. -/
theorem mem_blk (t : Fin cfg1.N) (i : S1000000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v31).slice (win1_3.rect t)).set ↔ _
  rw [View.set_slice_whole, Rect.mem_set_unit]
  exact Iff.rfl

/-- THE COVER: row r of the result array is in the block of point r / 5000, and every point writes back. -/
theorem cover (i : S1000000x1.Idx) :
    ∃ t : Fin cfg1.N, (cfg1.win 3).flush t = true ∧ i ∈ ((cfg1.win 3).blk t).view.set := by
  have hi0 : (i 0).val < 1000000 := (i 0).isLt
  have hi1 : (i 1).val < 1 := (i 1).isLt
  have hN : cfg1.N = 200 := N_1
  have ht : (i 0).val / 5000 < cfg1.N := by rw [hN]; omega
  obtain ⟨e0, e1, e2, e3, e4, e5, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 1 ≤ (i 1).val ∧ (i 1).val < win1_3.index ⟨(i 0).val / 5000, ht⟩ (1 : Fin 2) * 1 + 1
    rw [e7]; omega

/-- THE RESULT ARRAY after all grid points: stage two of the region's input arrays as entered. -/
theorem final1 (c : Dev nD) :
    (dat1 (F := Ideal) V c).arrAt 3 cfg1.N
      = L2 (V c main_v29) (V c main_v17) (V c main_v30) :=
  (dat1 V c).arrAt_eq_of_cover 3 (L2 (V c main_v29) (V c main_v17) (V c main_v30)) (fun t _ => flushed_eq V c t) cover

end Cert.KernelIdeal.Reg1

end
-- ==== Proof.KHost.lean ====
/-
  The host computation around the two dense stages, folded: the result array as one term of the six arguments.

  The program runs seven stretches of whole-array operations around two grid-swept dense stages. Each stretch is read
  once, from ANY buffer contents: the few buffers it leaves that a later step reads, as functions of the buffers it
  reads (the edge words; the degree and its inverse square root where positive; the scaled features; a row take
  along the source words; a sum of the taken rows at their target words; a bias as a row). A buffer a stretch does
  not write keeps its contents. A dense stage leaves its result array at the stage's whole-array function of its
  input arrays as entered, and every other buffer as entered. Chaining these boundary by boundary from the launch,
  the result array after the second stage is the second stage of (the second aggregation, the normalisation column,
  the second bias), each a term of the arguments as launched.
-/
import proofs.«410824_j56633438765476_3_alg».proof.Proof.Gen.KernelIdeal.Frame
import proofs.«410824_j56633438765476_3_alg».proof.Proof.KTerm
import proofs.«410824_j56633438765476_3_alg».proof.Proof.KReg0
import proofs.«410824_j56633438765476_3_alg».proof.Proof.KReg1
import Idealize.ShloMosaic.Lib.StableHlo.Run
import Idealize.ShloMosaic.PureOps.Ideal

set_option maxRecDepth 16384

noncomputable section

namespace Cert.KernelIdeal.Host

open Cert.KernelIdeal Cert.KernelIdeal.Gen Cert.KernelIdeal.Term Idealize.ShloMosaic Idealize.ShloMosaic.TcCoe Idealize.SL.Sem
  Idealize.ShloMosaic.StableHlo

/-! ## Two small facts about buffers -/

/-- A value stored in a buffer at its own type and read back is the value. -/
theorem ofBuf_toBuf {T : BufTy} {Val : EltTy → Type} (x : TRef sig T) (v : T.Contents Val) : x.ofBuf (x.toBuf v) = v := by
  obtain ⟨r, h, h2, h3⟩ := x
  subst h
  rfl

/-- A buffer of a list is among the list's buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## What each stretch writes -/

/-- The buffers stretch 0 writes. -/
abbrev wr0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hW0 : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The buffers stretch 1 writes. -/
abbrev wr1 : List (Ref sig .tc) := [main_call0_v0, main_call0_v1, main_v16]
theorem hW1 : (hostOps0_1 (F := Ideal)).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The buffers stretch 2 writes. -/
abbrev wr2 : List (Ref sig .tc) := [main_v17, main_v18, main_v19]
theorem hW2 : (hostOps0_2 (F := Ideal)).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The buffers stretch 3 writes. -/
abbrev wr3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20]
theorem hW3 : (hostOps0_3 (F := Ideal)).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The buffers stretch 4 writes. -/
abbrev wr4 : List (Ref sig .tc) := [main_cst_4, main_v21, main_v22, main_v23, main_v24]
theorem hW4 : (hostOps0_4 (F := Ideal)).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The buffers stretch 5 writes. -/
abbrev wr5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v26]
theorem hW5 : (hostOps1 (F := Ideal)).Forall fun op => op.writes ⊆ (wr5.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The buffers stretch 6 writes. -/
abbrev wr6 : List (Ref sig .tc) := [main_cst_5, main_v27, main_v28, main_v29, main_v30]
theorem hW6 : (hostOps1_1 (F := Ideal)).Forall fun op => op.writes ⊆ (wr6.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-! ## Each stretch, from any buffer contents `U`: the buffers it leaves, as functions of the buffers it reads -/

section Stretches
variable (U : Valuation τ sig (Elt Ideal))

/-! ### Stretch 0: the edge words, the degree, its comparison with zero and its inverse square root -/

theorem s0_v3 : after (hostOps0 (F := Ideal)) U (Proc.devRef .tc main_v3) = srcT (U (Proc.devRef .tc main_arg1)) := by
  simp only [hostOps0]
  after_results
  rfl

theorem s0_v6 : after (hostOps0 (F := Ideal)) U (Proc.devRef .tc main_v6) = dstT (U (Proc.devRef .tc main_arg1)) := by
  simp only [hostOps0]
  after_results
  rfl

theorem s0_v12 : after (hostOps0 (F := Ideal)) U (Proc.devRef .tc main_v12) = (cmpf (F := Ideal) .ogt (degT (U (Proc.devRef .tc main_arg1))) (broadcastInDim S1000000 ![] Facts₀.bcast_S_S1000000 (constant S_ .f32 0x00000000#32))) := by
  simp only [hostOps0]
  after_results
  rfl

theorem s0_v15 : after (hostOps0 (F := Ideal)) U (Proc.devRef .tc main_v15) = (Host.rsqrt (maximumf (degT (U (Proc.devRef .tc main_arg1))) (broadcastInDim S1000000 ![] Facts₀.bcast_S_S1000000 (constant S_ .f32 0x3F800000#32)))) := by
  simp only [hostOps0]
  after_results
  rfl

theorem s0_cst3 : after (hostOps0 (F := Ideal)) U (Proc.devRef .tc main_cst_3) = constant (F := Ideal) S_ .f32 0x00000000#32 := by
  simp only [hostOps0]
  after_results

/-! ### Stretch 1: the normalisation, selected where the degree is positive -/

theorem s1_v16 (a1 : IVec S2x32000000 32) (h12 : (U (Proc.devRef .tc main_v12)) = (cmpf (F := Ideal) .ogt (degT a1) (broadcastInDim S1000000 ![] Facts₀.bcast_S_S1000000 (constant S_ .f32 0x00000000#32))))
    (h15 : (U (Proc.devRef .tc main_v15)) = (Host.rsqrt (maximumf (degT a1) (broadcastInDim S1000000 ![] Facts₀.bcast_S_S1000000 (constant S_ .f32 0x3F800000#32)))))
    (h3 : (U (Proc.devRef .tc main_cst_3)) = constant (F := Ideal) S_ .f32 0x00000000#32) :
    after (hostOps0_1 (F := Ideal)) U (Proc.devRef .tc main_v16) = dinvT a1 := by
  have e12 : ∀ h1 h2 h3, (TRef.of (T := ⟨S1000000, .i1⟩) main_v12 h1 h2 h3).ofBuf (U (Proc.devRef .tc main_v12)) = (U (Proc.devRef .tc main_v12)) :=
    fun _ _ _ => rfl
  have e15 : ∀ h1 h2 h3, (TRef.of (T := ⟨S1000000, .f32⟩) main_v15 h1 h2 h3).ofBuf (U (Proc.devRef .tc main_v15)) = (U (Proc.devRef .tc main_v15)) :=
    fun _ _ _ => rfl
  have ec3 : ∀ h1 h2 h3, (TRef.of (T := ⟨S_, .f32⟩) main_cst_3 h1 h2 h3).ofBuf (U (Proc.devRef .tc main_cst_3)) = (U (Proc.devRef .tc main_cst_3)) :=
    fun _ _ _ => rfl
  have e16 : ∀ (v : (⟨S1000000, .f32⟩ : BufTy).Contents (Elt Ideal)) h1 h2 h3,
      (TRef.of (T := ⟨S1000000, .f32⟩) main_v16 h1 h2 h3).toBuf v = v := fun _ _ _ _ => rfl
  simp only [hostOps0_1]
  after_results_simp
  simp only [ofBuf_toBuf, e12, e15, ec3, e16]
  rw [h12, h15, h3]
  rfl

/-! ### Stretch 2: the normalisation as a column, and the features scaled by it -/

theorem s2_v17 (a1 : IVec S2x32000000 32) (h16 : (U (Proc.devRef .tc main_v16)) = dinvT a1) :
    after (hostOps0_2 (F := Ideal)) U (Proc.devRef .tc main_v17) = dcolT a1 := by
  simp only [hostOps0_2]
  after_results
  rw [h16]
  rfl

theorem s2_v19 (a0 : FVec Ideal S1000000x2 .f32) (a1 : IVec S2x32000000 32) (h16 : (U (Proc.devRef .tc main_v16)) = dinvT a1)
    (h0 : (U (Proc.devRef .tc main_arg0)) = a0) :
    after (hostOps0_2 (F := Ideal)) U (Proc.devRef .tc main_v19) = xsT a0 a1 := by
  simp only [hostOps0_2]
  after_results
  rw [h16, h0]
  rfl

/-! ### Stretch 3: the take of the scaled features' rows along the source words -/

set_option maxHeartbeats 1000000 in
theorem s3_v20 : after (hostOps0_3 (F := Ideal)) U (Proc.devRef .tc main_v20) = take2T (U (Proc.devRef .tc main_v19)) (U (Proc.devRef .tc main_v3)) := by
  have e3 : ∀ h1 h2 h3, (TRef.of (T := ⟨S33000000, .i32⟩) main_v3 h1 h2 h3).ofBuf (U (Proc.devRef .tc main_v3)) = (U (Proc.devRef .tc main_v3)) :=
    fun _ _ _ => rfl
  have e19 : ∀ h1 h2 h3, (TRef.of (T := ⟨S1000000x2, .f32⟩) main_v19 h1 h2 h3).ofBuf (U (Proc.devRef .tc main_v19)) = (U (Proc.devRef .tc main_v19)) :=
    fun _ _ _ => rfl
  have e20 : ∀ (v : (⟨S33000000x2, .f32⟩ : BufTy).Contents (Elt Ideal)) h1 h2 h3,
      (TRef.of (T := ⟨S33000000x2, .f32⟩) main_v20 h1 h2 h3).toBuf v = v := fun _ _ _ _ => rfl
  simp only [hostOps0_3]
  after_results_simp
  simp only [ofBuf_toBuf, e3, e19, e20]
  rfl

/-! ### Stretch 4: the first aggregation, and the first bias as a row -/

theorem s4_v23 (a0 : FVec Ideal S1000000x2 .f32) (a1 : IVec S2x32000000 32) (h6 : (U (Proc.devRef .tc main_v6)) = dstT a1)
    (h20 : (U (Proc.devRef .tc main_v20)) = take2T (xsT a0 a1) (srcT a1)) :
    after (hostOps0_4 (F := Ideal)) U (Proc.devRef .tc main_v23) = aggxT a0 a1 := by
  simp only [hostOps0_4]
  after_results
  rw [h6, h20]
  rfl

theorem s4_v24 (a3 : FVec Ideal S8 .f32) (h3 : (U (Proc.devRef .tc main_arg3)) = a3) :
    after (hostOps0_4 (F := Ideal)) U (Proc.devRef .tc main_v24) = shapeCast S1x8 a3 Facts₀.shapeCasts_S8_S1x8 := by
  simp only [hostOps0_4]
  after_results
  rw [h3]
  rfl

/-! ### Stretch 5: the take of the first stage's rows along the source words -/

set_option maxHeartbeats 1000000 in
theorem s5_v26 : after (hostOps1 (F := Ideal)) U (Proc.devRef .tc main_v26) = take1T (U (Proc.devRef .tc main_v25)) (U (Proc.devRef .tc main_v3)) := by
  have e3 : ∀ h1 h2 h3, (TRef.of (T := ⟨S33000000, .i32⟩) main_v3 h1 h2 h3).ofBuf (U (Proc.devRef .tc main_v3)) = (U (Proc.devRef .tc main_v3)) :=
    fun _ _ _ => rfl
  have e25 : ∀ h1 h2 h3, (TRef.of (T := ⟨S1000000x1, .f32⟩) main_v25 h1 h2 h3).ofBuf (U (Proc.devRef .tc main_v25)) = (U (Proc.devRef .tc main_v25)) :=
    fun _ _ _ => rfl
  have e26 : ∀ (v : (⟨S33000000x1, .f32⟩ : BufTy).Contents (Elt Ideal)) h1 h2 h3,
      (TRef.of (T := ⟨S33000000x1, .f32⟩) main_v26 h1 h2 h3).toBuf v = v := fun _ _ _ _ => rfl
  simp only [hostOps1]
  after_results_simp
  simp only [ofBuf_toBuf, e3, e25, e26]
  rfl

/-! ### Stretch 6: the second aggregation, and the second bias as a one-element row -/

theorem s6_v29 (a0 : FVec Ideal S1000000x2 .f32) (a1 : IVec S2x32000000 32) (a2 : FVec Ideal S2x8 .f32) (a3 : FVec Ideal S8 .f32)
    (a4 : FVec Ideal S8x1 .f32) (h6 : (U (Proc.devRef .tc main_v6)) = dstT a1)
    (h26 : (U (Proc.devRef .tc main_v26)) = take1T (hs2T a0 a1 a2 a3 a4) (srcT a1)) :
    after (hostOps1_1 (F := Ideal)) U (Proc.devRef .tc main_v29) = agg2T a0 a1 a2 a3 a4 := by
  simp only [hostOps1_1]
  after_results
  rw [h6, h26]
  rfl

theorem s6_v30 (a5 : FVec Ideal S1 .f32) (h5 : (U (Proc.devRef .tc main_arg5)) = a5) :
    after (hostOps1_1 (F := Ideal)) U (Proc.devRef .tc main_v30) = shapeCast S1x1 a5 Facts₀.shapeCasts_S1_S1x1 := by
  simp only [hostOps1_1]
  after_results
  rw [h5]
  rfl

end Stretches

/-! ## The fold, boundary by boundary: each buffer a later step reads, as a term of the six arguments -/

section Chain
variable (m : (ℓ : Loc nD τ sig) → Buf (Elt Ideal) ℓ) (ρ : Dev nD → PrngReg) (c : Dev nD)

/-! ### After stretch 0 -/

theorem W1_v3 : W1 (F := Ideal) m ρ c (Proc.devRef .tc main_v3) = srcT (m ((c.tc : Thread nD τ).loc main_arg1)) := s0_v3 (W0 m ρ c)
theorem W1_v6 : W1 (F := Ideal) m ρ c (Proc.devRef .tc main_v6) = dstT (m ((c.tc : Thread nD τ).loc main_arg1)) := s0_v6 (W0 m ρ c)
theorem W1_v12 : W1 (F := Ideal) m ρ c (Proc.devRef .tc main_v12) = (cmpf (F := Ideal) .ogt (degT (m ((c.tc : Thread nD τ).loc main_arg1))) (broadcastInDim S1000000 ![] Facts₀.bcast_S_S1000000 (constant S_ .f32 0x00000000#32))) := s0_v12 (W0 m ρ c)
theorem W1_v15 : W1 (F := Ideal) m ρ c (Proc.devRef .tc main_v15) = (Host.rsqrt (maximumf (degT (m ((c.tc : Thread nD τ).loc main_arg1))) (broadcastInDim S1000000 ![] Facts₀.bcast_S_S1000000 (constant S_ .f32 0x3F800000#32)))) := s0_v15 (W0 m ρ c)
theorem W1_cst3 : W1 (F := Ideal) m ρ c (Proc.devRef .tc main_cst_3) = constant (F := Ideal) S_ .f32 0x00000000#32 := s0_cst3 (W0 m ρ c)
theorem W1_arg0 : W1 (F := Ideal) m ρ c (Proc.devRef .tc main_arg0) = (m ((c.tc : Thread nD τ).loc main_arg0)) := after_of_writes_sub _ _ hW0 (by decide)
theorem W1_arg2 : W1 (F := Ideal) m ρ c (Proc.devRef .tc main_arg2) = (m ((c.tc : Thread nD τ).loc main_arg2)) := after_of_writes_sub _ _ hW0 (by decide)
theorem W1_arg3 : W1 (F := Ideal) m ρ c (Proc.devRef .tc main_arg3) = (m ((c.tc : Thread nD τ).loc main_arg3)) := after_of_writes_sub _ _ hW0 (by decide)
theorem W1_arg4 : W1 (F := Ideal) m ρ c (Proc.devRef .tc main_arg4) = (m ((c.tc : Thread nD τ).loc main_arg4)) := after_of_writes_sub _ _ hW0 (by decide)
theorem W1_arg5 : W1 (F := Ideal) m ρ c (Proc.devRef .tc main_arg5) = (m ((c.tc : Thread nD τ).loc main_arg5)) := after_of_writes_sub _ _ hW0 (by decide)

/-! ### After stretch 1 -/

theorem W2_v16 : W2 (F := Ideal) m ρ c (Proc.devRef .tc main_v16) = dinvT (m ((c.tc : Thread nD τ).loc main_arg1)) :=
  s1_v16 (W1 m ρ c) (m ((c.tc : Thread nD τ).loc main_arg1)) (W1_v12 m ρ c) (W1_v15 m ρ c) (W1_cst3 m ρ c)
theorem W2_v3 : W2 (F := Ideal) m ρ c (Proc.devRef .tc main_v3) = srcT (m ((c.tc : Thread nD τ).loc main_arg1)) := (after_of_writes_sub _ _ hW1 (by decide)).trans (W1_v3 m ρ c)
theorem W2_v6 : W2 (F := Ideal) m ρ c (Proc.devRef .tc main_v6) = dstT (m ((c.tc : Thread nD τ).loc main_arg1)) := (after_of_writes_sub _ _ hW1 (by decide)).trans (W1_v6 m ρ c)
theorem W2_arg0 : W2 (F := Ideal) m ρ c (Proc.devRef .tc main_arg0) = (m ((c.tc : Thread nD τ).loc main_arg0)) := (after_of_writes_sub _ _ hW1 (by decide)).trans (W1_arg0 m ρ c)
theorem W2_arg2 : W2 (F := Ideal) m ρ c (Proc.devRef .tc main_arg2) = (m ((c.tc : Thread nD τ).loc main_arg2)) := (after_of_writes_sub _ _ hW1 (by decide)).trans (W1_arg2 m ρ c)
theorem W2_arg3 : W2 (F := Ideal) m ρ c (Proc.devRef .tc main_arg3) = (m ((c.tc : Thread nD τ).loc main_arg3)) := (after_of_writes_sub _ _ hW1 (by decide)).trans (W1_arg3 m ρ c)
theorem W2_arg4 : W2 (F := Ideal) m ρ c (Proc.devRef .tc main_arg4) = (m ((c.tc : Thread nD τ).loc main_arg4)) := (after_of_writes_sub _ _ hW1 (by decide)).trans (W1_arg4 m ρ c)
theorem W2_arg5 : W2 (F := Ideal) m ρ c (Proc.devRef .tc main_arg5) = (m ((c.tc : Thread nD τ).loc main_arg5)) := (after_of_writes_sub _ _ hW1 (by decide)).trans (W1_arg5 m ρ c)

/-! ### After stretch 2 -/

theorem W3_v17 : W3 (F := Ideal) m ρ c (Proc.devRef .tc main_v17) = dcolT (m ((c.tc : Thread nD τ).loc main_arg1)) := s2_v17 (W2 m ρ c) (m ((c.tc : Thread nD τ).loc main_arg1)) (W2_v16 m ρ c)
theorem W3_v19 : W3 (F := Ideal) m ρ c (Proc.devRef .tc main_v19) = xsT (m ((c.tc : Thread nD τ).loc main_arg0)) (m ((c.tc : Thread nD τ).loc main_arg1)) :=
  s2_v19 (W2 m ρ c) (m ((c.tc : Thread nD τ).loc main_arg0)) (m ((c.tc : Thread nD τ).loc main_arg1)) (W2_v16 m ρ c) (W2_arg0 m ρ c)
theorem W3_v3 : W3 (F := Ideal) m ρ c (Proc.devRef .tc main_v3) = srcT (m ((c.tc : Thread nD τ).loc main_arg1)) := (after_of_writes_sub _ _ hW2 (by decide)).trans (W2_v3 m ρ c)
theorem W3_v6 : W3 (F := Ideal) m ρ c (Proc.devRef .tc main_v6) = dstT (m ((c.tc : Thread nD τ).loc main_arg1)) := (after_of_writes_sub _ _ hW2 (by decide)).trans (W2_v6 m ρ c)
theorem W3_arg2 : W3 (F := Ideal) m ρ c (Proc.devRef .tc main_arg2) = (m ((c.tc : Thread nD τ).loc main_arg2)) := (after_of_writes_sub _ _ hW2 (by decide)).trans (W2_arg2 m ρ c)
theorem W3_arg3 : W3 (F := Ideal) m ρ c (Proc.devRef .tc main_arg3) = (m ((c.tc : Thread nD τ).loc main_arg3)) := (after_of_writes_sub _ _ hW2 (by decide)).trans (W2_arg3 m ρ c)
theorem W3_arg4 : W3 (F := Ideal) m ρ c (Proc.devRef .tc main_arg4) = (m ((c.tc : Thread nD τ).loc main_arg4)) := (after_of_writes_sub _ _ hW2 (by decide)).trans (W2_arg4 m ρ c)
theorem W3_arg5 : W3 (F := Ideal) m ρ c (Proc.devRef .tc main_arg5) = (m ((c.tc : Thread nD τ).loc main_arg5)) := (after_of_writes_sub _ _ hW2 (by decide)).trans (W2_arg5 m ρ c)

/-! ### After stretch 3 -/

theorem W4_v20 : W4 (F := Ideal) m ρ c (Proc.devRef .tc main_v20) = take2T (xsT (m ((c.tc : Thread nD τ).loc main_arg0)) (m ((c.tc : Thread nD τ).loc main_arg1))) (srcT (m ((c.tc : Thread nD τ).loc main_arg1))) :=
  (s3_v20 (W3 m ρ c)).trans (by rw [W3_v19 m ρ c, W3_v3 m ρ c])
theorem W4_v17 : W4 (F := Ideal) m ρ c (Proc.devRef .tc main_v17) = dcolT (m ((c.tc : Thread nD τ).loc main_arg1)) := (after_of_writes_sub _ _ hW3 (by decide)).trans (W3_v17 m ρ c)
theorem W4_v3 : W4 (F := Ideal) m ρ c (Proc.devRef .tc main_v3) = srcT (m ((c.tc : Thread nD τ).loc main_arg1)) := (after_of_writes_sub _ _ hW3 (by decide)).trans (W3_v3 m ρ c)
theorem W4_v6 : W4 (F := Ideal) m ρ c (Proc.devRef .tc main_v6) = dstT (m ((c.tc : Thread nD τ).loc main_arg1)) := (after_of_writes_sub _ _ hW3 (by decide)).trans (W3_v6 m ρ c)
theorem W4_arg2 : W4 (F := Ideal) m ρ c (Proc.devRef .tc main_arg2) = (m ((c.tc : Thread nD τ).loc main_arg2)) := (after_of_writes_sub _ _ hW3 (by decide)).trans (W3_arg2 m ρ c)
theorem W4_arg3 : W4 (F := Ideal) m ρ c (Proc.devRef .tc main_arg3) = (m ((c.tc : Thread nD τ).loc main_arg3)) := (after_of_writes_sub _ _ hW3 (by decide)).trans (W3_arg3 m ρ c)
theorem W4_arg4 : W4 (F := Ideal) m ρ c (Proc.devRef .tc main_arg4) = (m ((c.tc : Thread nD τ).loc main_arg4)) := (after_of_writes_sub _ _ hW3 (by decide)).trans (W3_arg4 m ρ c)
theorem W4_arg5 : W4 (F := Ideal) m ρ c (Proc.devRef .tc main_arg5) = (m ((c.tc : Thread nD τ).loc main_arg5)) := (after_of_writes_sub _ _ hW3 (by decide)).trans (W3_arg5 m ρ c)

/-! ### After stretch 4: the first region's entry -/

theorem W5_v23 : W5 (F := Ideal) m ρ c (Proc.devRef .tc main_v23) = aggxT (m ((c.tc : Thread nD τ).loc main_arg0)) (m ((c.tc : Thread nD τ).loc main_arg1)) :=
  s4_v23 (W4 m ρ c) (m ((c.tc : Thread nD τ).loc main_arg0)) (m ((c.tc : Thread nD τ).loc main_arg1)) (W4_v6 m ρ c) (W4_v20 m ρ c)
theorem W5_v24 : W5 (F := Ideal) m ρ c (Proc.devRef .tc main_v24) = shapeCast S1x8 (m ((c.tc : Thread nD τ).loc main_arg3)) Facts₀.shapeCasts_S8_S1x8 :=
  s4_v24 (W4 m ρ c) (m ((c.tc : Thread nD τ).loc main_arg3)) (W4_arg3 m ρ c)
theorem W5_v17 : W5 (F := Ideal) m ρ c (Proc.devRef .tc main_v17) = dcolT (m ((c.tc : Thread nD τ).loc main_arg1)) := (after_of_writes_sub _ _ hW4 (by decide)).trans (W4_v17 m ρ c)
theorem W5_v3 : W5 (F := Ideal) m ρ c (Proc.devRef .tc main_v3) = srcT (m ((c.tc : Thread nD τ).loc main_arg1)) := (after_of_writes_sub _ _ hW4 (by decide)).trans (W4_v3 m ρ c)
theorem W5_v6 : W5 (F := Ideal) m ρ c (Proc.devRef .tc main_v6) = dstT (m ((c.tc : Thread nD τ).loc main_arg1)) := (after_of_writes_sub _ _ hW4 (by decide)).trans (W4_v6 m ρ c)
theorem W5_arg2 : W5 (F := Ideal) m ρ c (Proc.devRef .tc main_arg2) = (m ((c.tc : Thread nD τ).loc main_arg2)) := (after_of_writes_sub _ _ hW4 (by decide)).trans (W4_arg2 m ρ c)
theorem W5_arg4 : W5 (F := Ideal) m ρ c (Proc.devRef .tc main_arg4) = (m ((c.tc : Thread nD τ).loc main_arg4)) := (after_of_writes_sub _ _ hW4 (by decide)).trans (W4_arg4 m ρ c)
theorem W5_arg5 : W5 (F := Ideal) m ρ c (Proc.devRef .tc main_arg5) = (m ((c.tc : Thread nD τ).loc main_arg5)) := (after_of_writes_sub _ _ hW4 (by decide)).trans (W4_arg5 m ρ c)

/-! ### After the first region: its result array is the first dense stage of its input arrays; the rest is as entered -/

theorem W6_v25 : W6 (F := Ideal) m ρ c (Proc.devRef .tc main_v25) = hs2T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 5).trans ((Reg0.final0 (V5 m ρ) c).trans ?_)
  show Cert.Spec.L1 (W5 (F := Ideal) m ρ c (Proc.devRef .tc main_v23)) (W5 (F := Ideal) m ρ c (Proc.devRef .tc main_v17)) (W5 (F := Ideal) m ρ c (Proc.devRef .tc main_arg2)) (W5 (F := Ideal) m ρ c (Proc.devRef .tc main_v24)) (W5 (F := Ideal) m ρ c (Proc.devRef .tc main_arg4)) = _
  rw [W5_v23 m ρ c, W5_v17 m ρ c, W5_arg2 m ρ c, W5_v24 m ρ c, W5_arg4 m ρ c]
  rfl
theorem W6_v17 : W6 (F := Ideal) m ρ c (Proc.devRef .tc main_v17) = dcolT (m ((c.tc : Thread nD τ).loc main_arg1)) :=
  ((W6_arr m ρ c 1).trans (((dat0 (V5 m ρ) c).arrAt_in 1 rfl _).trans (A_eq0 (V5 m ρ) c 1))).trans (W5_v17 m ρ c)
theorem W6_v3 : W6 (F := Ideal) m ρ c (Proc.devRef .tc main_v3) = srcT (m ((c.tc : Thread nD τ).loc main_arg1)) := (W6_of_ne m ρ c main_v3 (by decide)).trans (W5_v3 m ρ c)
theorem W6_v6 : W6 (F := Ideal) m ρ c (Proc.devRef .tc main_v6) = dstT (m ((c.tc : Thread nD τ).loc main_arg1)) := (W6_of_ne m ρ c main_v6 (by decide)).trans (W5_v6 m ρ c)
theorem W6_arg5 : W6 (F := Ideal) m ρ c (Proc.devRef .tc main_arg5) = (m ((c.tc : Thread nD τ).loc main_arg5)) := (W6_of_ne m ρ c main_arg5 (by decide)).trans (W5_arg5 m ρ c)

/-! ### After stretch 5 -/

theorem W7_v26 : W7 (F := Ideal) m ρ c (Proc.devRef .tc main_v26) = take1T (hs2T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (srcT (m ((c.tc : Thread nD τ).loc main_arg1))) :=
  (s5_v26 (W6 m ρ c)).trans (by rw [W6_v25 m ρ c, W6_v3 m ρ c])
theorem W7_v17 : W7 (F := Ideal) m ρ c (Proc.devRef .tc main_v17) = dcolT (m ((c.tc : Thread nD τ).loc main_arg1)) := (after_of_writes_sub _ _ hW5 (by decide)).trans (W6_v17 m ρ c)
theorem W7_v6 : W7 (F := Ideal) m ρ c (Proc.devRef .tc main_v6) = dstT (m ((c.tc : Thread nD τ).loc main_arg1)) := (after_of_writes_sub _ _ hW5 (by decide)).trans (W6_v6 m ρ c)
theorem W7_arg5 : W7 (F := Ideal) m ρ c (Proc.devRef .tc main_arg5) = (m ((c.tc : Thread nD τ).loc main_arg5)) := (after_of_writes_sub _ _ hW5 (by decide)).trans (W6_arg5 m ρ c)

/-! ### After stretch 6: the second region's entry -/

theorem W8_v29 : W8 (F := Ideal) m ρ c (Proc.devRef .tc main_v29) = agg2T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  s6_v29 (W7 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (W7_v6 m ρ c) (W7_v26 m ρ c)
theorem W8_v30 : W8 (F := Ideal) m ρ c (Proc.devRef .tc main_v30) = shapeCast S1x1 (m ((c.tc : Thread nD τ).loc main_arg5)) Facts₀.shapeCasts_S1_S1x1 :=
  s6_v30 (W7 m ρ c) (m ((c.tc : Thread nD τ).loc main_arg5)) (W7_arg5 m ρ c)
theorem W8_v17 : W8 (F := Ideal) m ρ c (Proc.devRef .tc main_v17) = dcolT (m ((c.tc : Thread nD τ).loc main_arg1)) := (after_of_writes_sub _ _ hW6 (by decide)).trans (W7_v17 m ρ c)

/-! ## The result -/

/-- The result array after the second region is the second dense stage of the second aggregation, the normalisation
    column and the second bias: the whole host computation, as a term of the six arguments as launched. -/
theorem w9_out (m : (ℓ : Loc nD τ sig) → Buf (Elt Ideal) ℓ) (ρ : Dev nD → PrngReg) (c : Dev nD) :
    W9 (F := Ideal) m ρ c (Proc.devRef .tc main_v31)
      = outT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (W9_arr m ρ c 3).trans ((Reg1.final1 (V8 m ρ) c).trans ?_)
  show Cert.Spec.L2 (W8 (F := Ideal) m ρ c (Proc.devRef .tc main_v29)) (W8 (F := Ideal) m ρ c (Proc.devRef .tc main_v17)) (W8 (F := Ideal) m ρ c (Proc.devRef .tc main_v30)) = _
  rw [W8_v29 m ρ c, W8_v17 m ρ c, W8_v30 m ρ c]
  rfl

end Chain

/-- info: 'Cert.KernelIdeal.Host.w9_out' depends on axioms: [propext, Classical.choice, Quot.sound] -/
#guard_msgs (whitespace := lax) in #print axioms w9_out

end Cert.KernelIdeal.Host

end
-- ==== Proof.Rows.lean ====
/-
  Row reads of a table gather and a table scatter-add, at one element.

  Both operations index the FIRST axis of an [N × K] table by an [n × 1] column of start indices, and carry whole rows
  (the second axis, of size K, is the window / offset axis):

  * the GATHER (a row take): result element (p, q) is the table's element (c, q), where c is row p's start index read
    as a signed integer and clamped into [0, N − 1];
  * the SCATTER-ADD into an [N × K] operand at the exact-sum instance: element (r, q) is the operand's plus the sum
    of the updates' elements (p, q) over the rows p whose start index, read signed and NOT clamped, equals r (a row
    whose index falls outside [0, N) lands nowhere);
  * a scatter-add of ones into zeros, at any dimension numbers, is at each element a count: a non-negative real.
-/
import Idealize.ShloMosaic.Lib.StableHlo.Predicate
import Idealize.ShloMosaic.PureOps.Ideal
import Idealize.ShloMosaic.PureOps.Contract

namespace Cert.Rows

open Idealize.ShloMosaic Idealize.ShloMosaic.StableHlo.Predicate

/-- THE ROW TAKE. With the operand's axis 0 collapsed and start-indexed, the result's axis 1 its one offset axis, no
    batching axes and the index vector on axis 1 of the start indices, result element (p, q) reads the table at
    (row p's start index, signed, clamped into [0, N − 1]; q). -/
theorem gather_rows {α : Type} {N K n w : Nat} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ w) (p : Fin n) (q : Fin K) (hN : 0 < N) :
    Host.gather d x idx (ij p q) = x (ij ⟨min (idx (ixP p)).toInt.toNat (N - 1), by omega⟩ q) := by
  unfold Host.gather
  congr 1
  -- the result's batch axes are [0]; the operand's kept axes are [1]
  have hbd_all : ∀ b ∈ d.batchDims, b = 0 := by
    show ∀ b ∈ (⟨2, ![n, K]⟩ : Shape).kept d.offsetDims, b = 0
    rw [hoff]; intro b hb
    have hb2 : b ∉ ([1] : List (Fin 2)) := by simpa [Shape.kept] using hb
    match b, hb2 with
    | ⟨0, _⟩, _ => rfl
    | ⟨1, _⟩, h => exact absurd (List.mem_singleton.mpr rfl) h
  have hoff_all : ∀ b ∈ d.offsetDims, b = 1 := by rw [hoff]; simp
  have hsK : d.sKept = [1] := by
    show (⟨2, ![N, K]⟩ : Shape).kept (d.collapsedSliceDims ++ d.operandBatchingDims) = [1]
    rw [hcoll, hob]; rfl
  have hb : ∀ a : Fin 2, a ∉ d.operandBatchingDims := fun a => by rw [hob]; exact List.not_mem_nil
  have h0 : (d.operandIdx (ij p q) idx 0).val = min (idx (ixP p)).toInt.toNat (N - 1) := by
    have hk : (0 : Fin 2) ∉ d.sKept := by rw [hsK]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ij p q : (⟨2, ![n, K]⟩ : Shape).Idx) X).val = p.val := fun X hX => by
        subst hX; rfl
      exact e _ (hbd_all _ (List.getElem_mem _))
    | ⟨1, _⟩ =>
      unfold GatherDims.siIdx
      rw [dif_pos (by rw [hivd])]
      apply Fin.ext
      show List.idxOf (0 : Fin 2) d.startIndexMap = 0
      rw [hsim]; simp
  have h1 : (d.operandIdx (ij p q) idx 1).val = q.val := by
    have hk : (1 : Fin 2) ∈ d.sKept := by rw [hsK]; exact List.mem_singleton.mpr rfl
    have hm : (1 : Fin 2) ∉ d.startIndexMap := by rw [hsim]; simp
    simp only [GatherDims.operandIdx, GatherDims.batchCoord_eq_zero _ _ _ (hb 1), Nat.add_zero, GatherDims.start, dif_neg hm,
      Nat.zero_add, GatherDims.offCoord, dif_pos hk]
    have e : ∀ X : Fin 2, X = 1 → ((ij p q : (⟨2, ![n, K]⟩ : Shape).Idx) X).val = q.val := fun X hX => by
      subst hX; rfl
    exact e _ (hoff_all _ (List.getElem_mem _))
  funext a
  apply Fin.ext
  match a with
  | ⟨0, _⟩ => exact h0
  | ⟨1, _⟩ => exact h1

/-- THE ROW SCATTER-ADD. With the operand's axis 0 inserted and the one the scatter indices name, the updates' axis 1
    their one window axis and the index vector on axis 1 of the scatter indices, update (p, q) lands on
    (row p's start index, signed, not clamped; q) when that row is inside the operand, and nowhere otherwise. So
    element (r, q) of the result is the operand's plus the sum of the updates (p, q) over the rows p whose start
    index is r. -/
theorem scatterAdd_rows {φ : FTy} {N K n w : Nat} (d : ScatterDims ⟨2, ![N, K]⟩ ⟨2, ![n, 1]⟩ ⟨2, ![n, K]⟩)
    (huw : d.updateWindowDims = [1]) (hiw : d.insertedWindowDims = [0]) (hsd : d.scatterDimsToOperandDims = [0]) (hivd : d.indexVectorDim = 1)
    (x : FVec Ideal ⟨2, ![N, K]⟩ φ) (idx : IVec ⟨2, ![n, 1]⟩ w) (upd : FVec Ideal ⟨2, ![n, K]⟩ φ) (r : Fin N) (q : Fin K) :
    Host.scatterAdd d x idx upd (ij r q)
      = x (ij r q) + ∑ p ∈ Finset.univ.filter (fun p : Fin n => (idx (ixP p)).toInt = (r.val : ℤ)), upd (ij p q) := by
  -- the updates' scatter axes are [0], its window axes [1]; the operand's kept axes are [1]
  have hus_all : ∀ b ∈ d.uScatter, b = 0 := by
    show ∀ b ∈ (⟨2, ![n, K]⟩ : Shape).kept d.updateWindowDims, b = 0
    rw [huw]; intro b hb
    have hb2 : b ∉ ([1] : List (Fin 2)) := by simpa [Shape.kept] using hb
    match b, hb2 with
    | ⟨0, _⟩, _ => rfl
    | ⟨1, _⟩, h => exact absurd (List.mem_singleton.mpr rfl) h
  have huw_all : ∀ b ∈ d.updateWindowDims, b = 1 := by rw [huw]; simp
  have hsK : d.sKept = [1] := by
    show (⟨2, ![N, K]⟩ : Shape).kept d.insertedWindowDims = [1]
    rw [hiw]; rfl
  -- the four coordinates of an update's landing index
  have hst0 : ∀ j : (⟨2, ![n, K]⟩ : Shape).Idx, d.start j idx 0 = (idx (ixP (j 0))).toInt := by
    intro j
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 2, X = 0 → (j X).val = (j 0).val := fun X hX => by subst hX; rfl
      exact e _ (hus_all _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hst1 : ∀ j : (⟨2, ![n, K]⟩ : Shape).Idx, d.start j idx 1 = 0 := by
    intro j
    have hm : (1 : Fin 2) ∉ d.scatterDimsToOperandDims := by rw [hsd]; simp
    unfold ScatterDims.start
    rw [dif_neg hm]
  have hw0 : ∀ j : (⟨2, ![n, K]⟩ : Shape).Idx, d.window j 0 = 0 := by
    intro j
    have hk : (0 : Fin 2) ∉ d.sKept := by rw [hsK]; simp
    unfold ScatterDims.window
    rw [dif_neg hk]
  have hw1 : ∀ j : (⟨2, ![n, K]⟩ : Shape).Idx, d.window j 1 = (j 1).val := by
    intro j
    have hk : (1 : Fin 2) ∈ d.sKept := by rw [hsK]; exact List.mem_singleton.mpr rfl
    unfold ScatterDims.window
    rw [dif_pos hk]
    have e : ∀ X : Fin 2, X = 1 → (j X).val = (j 1).val := fun X hX => by subst hX; rfl
    exact e _ (huw_all _ (List.getElem_mem _))
  -- an update lands on (r, q) exactly when its row's start index, read signed, is r and its column is q
  have hiff : ∀ j : (⟨2, ![n, K]⟩ : Shape).Idx,
      d.resultIdx? j idx = some (ij r q) ↔ (idx (ixP (j 0))).toInt = (r.val : ℤ) ∧ j 1 = q := by
    intro j
    unfold ScatterDims.resultIdx?
    constructor
    · intro h
      split at h
      · next hall =>
        have heq := Option.some.inj h
        have e0 : (d.start j idx 0 + (d.window j 0 : ℤ)).toNat = r.val :=
          congrArg (fun f : (⟨2, ![N, K]⟩ : Shape).Idx => (f 0).val) heq
        have e1 : (d.start j idx 1 + (d.window j 1 : ℤ)).toNat = q.val :=
          congrArg (fun f : (⟨2, ![N, K]⟩ : Shape).Idx => (f 1).val) heq
        have b0 := (hall 0).1
        rw [hst0, hw0] at e0 b0
        rw [hst1, hw1] at e1
        refine ⟨by omega, Fin.ext ?_⟩
        omega
      · exact absurd h (by simp)
    · rintro ⟨hr, hq⟩
      have hq' : (j 1).val = q.val := congrArg Fin.val hq
      have hall : ∀ a : Fin 2, 0 ≤ d.start j idx a + (d.window j a : ℤ)
          ∧ d.start j idx a + (d.window j a : ℤ) < ((⟨2, ![N, K]⟩ : Shape).size a : ℤ) := by
        intro a
        match a with
        | ⟨0, _⟩ =>
          show 0 ≤ d.start j idx 0 + (d.window j 0 : ℤ) ∧ d.start j idx 0 + (d.window j 0 : ℤ) < (N : ℤ)
          rw [hst0, hw0, hr]
          have := r.isLt
          omega
        | ⟨1, _⟩ =>
          show 0 ≤ d.start j idx 1 + (d.window j 1 : ℤ) ∧ d.start j idx 1 + (d.window j 1 : ℤ) < (K : ℤ)
          rw [hst1, hw1, hq']
          have := q.isLt
          omega
      rw [dif_pos hall]
      congr 1
      funext a
      apply Fin.ext
      match a with
      | ⟨0, _⟩ =>
        show (d.start j idx 0 + (d.window j 0 : ℤ)).toNat = r.val
        rw [hst0, hw0, hr]; omega
      | ⟨1, _⟩ =>
        show (d.start j idx 1 + (d.window j 1 : ℤ)).toNat = q.val
        rw [hst1, hw1, hq']; omega
  simp only [Host.scatterAdd, Ideal.hostScatterAdd_def, Ideal.hostScatterAdd]
  congr 1
  refine Finset.sum_bij' (fun j _ => j 0) (fun p _ => ij p q)
    (fun j hj => Finset.mem_filter.2 ⟨Finset.mem_univ _, ((hiff j).1 (Finset.mem_filter.1 hj).2).1⟩)
    (fun p hp => Finset.mem_filter.2 ⟨Finset.mem_univ _, (hiff (ij p q)).2 ⟨(Finset.mem_filter.1 hp).2, rfl⟩⟩)
    (fun j hj => ?_) (fun _ _ => rfl) (fun j hj => ?_)
  · have hq := ((hiff j).1 (Finset.mem_filter.1 hj).2).2
    rw [← hq]; exact ij_eta j
  · have hq := ((hiff j).1 (Finset.mem_filter.1 hj).2).2
    have : ij (j 0) q = j := by rw [← hq]; exact ij_eta j
    exact (congrArg upd this).symm

/-- A scatter-add of ones into zeros is, at each element, the number of updates landing there: a non-negative real,
    never an infinity. -/
theorem scatterAdd_ones_isReal {φ : FTy} {s si u : Shape} {w : Nat} (d : ScatterDims s si u) (idx : IVec si w) (i : s.Idx) :
    ∃ r : ℝ, 0 ≤ r ∧ Host.scatterAdd (F := Ideal) (φ := φ) d (fun _ => (0 : EReal)) idx (fun _ => (1 : EReal)) i = (r : EReal) := by
  -- each landing update adds 1 to 0: the value is the number of updates that land on i
  have h : Host.scatterAdd (F := Ideal) (φ := φ) d (fun _ => (0 : EReal)) idx (fun _ => (1 : EReal)) i
      = ((Finset.univ.filter (fun j => d.resultIdx? j idx = some i)).card : EReal) := by
    simp only [Host.scatterAdd, Ideal.hostScatterAdd_def, Ideal.hostScatterAdd]
    rw [zero_add, Finset.sum_const, nsmul_one]
  exact ⟨((Finset.univ.filter (fun j => d.resultIdx? j idx = some i)).card : ℝ), Nat.cast_nonneg _,
    h.trans EReal.coe_natCast.symm⟩

/-- info: 'Cert.Rows.gather_rows' depends on axioms: [propext, Classical.choice, Quot.sound] -/
#guard_msgs (whitespace := lax) in #print axioms gather_rows

/-- info: 'Cert.Rows.scatterAdd_rows' depends on axioms: [propext, Classical.choice, Quot.sound] -/
#guard_msgs (whitespace := lax) in #print axioms scatterAdd_rows

/-- info: 'Cert.Rows.scatterAdd_ones_isReal' depends on axioms: [propext, Classical.choice, Quot.sound] -/
#guard_msgs (whitespace := lax) in #print axioms scatterAdd_ones_isReal

end Cert.Rows
-- ==== Proof.KIdx.lean ====
import proofs.«410824_j56633438765476_3_alg».proof.Proof.KTerm
import proofs.«410824_j56633438765476_3_alg».proof.Proof.Edges
import proofs.«410824_j56633438765476_3_alg».proof.Proof.Rows
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

/-!
# The kernel program's result, read at one node

Every array of the host computation is read at one index. The edge words are the given rows followed by the node
numbers; a take wraps a negative index word, gathers the row the wrapped word names (clamped into the table) and keeps
it where the wrapped word lies in the table, which the hypothesis grants for every source word; a scatter-add at a
node sums the updates of the edges whose target word, read signed, is that node. Read so, the result at node `n` is
the logistic function of `D n * Σ_{e lands on n} hs2 (source e) + b2`: the split-normalisation form of the
two-layer graph convolution.
-/

noncomputable section

namespace Cert.KernelIdeal.Idx

open Cert.KernelIdeal Cert.KernelIdeal.Term Cert.Spec Idealize.ShloMosaic Idealize.ShloMosaic.StableHlo.Predicate
open Idealize.ShloMosaic.ValueIdx (select_apply select_one mulf_apply)

/-- The kernel program's degree normalisation, node by node. -/
def DK (a1 : IVec S2x32000000 32) : Fin Nn → EReal := fun n => dinvT a1 (Shape.Idx.ofFin n)

/-! ## The edge words -/

/-- Row 0 of the edge array, sliced out, flattened and read at position `e`, is the array at `(0, e)`. -/
theorem read_row0 (hs : S2x32000000.Slices ![0, 0] S1x32000000) (hc : S1x32000000.ShapeCasts S32000000)
    (a1 : IVec S2x32000000 32) (e : Fin 32000000) :
    shapeCast S32000000 (extractStridedSlice S1x32000000 ![0, 0] a1 hs) hc (Shape.Idx.ofFin e)
      = a1 (ij (0 : Fin 2) e) := by
  unfold shapeCast
  rw [Shape.reshapeEquiv_cons_one (n := 1) (d := ![32000000]) hc (Shape.Idx.ofFin e)]
  unfold extractStridedSlice
  congr 1
  funext a
  match a with
  | ⟨0, _⟩ => exact Fin.ext rfl
  | ⟨1, _⟩ => exact Fin.ext (Nat.zero_add _)

/-- Row 1 likewise is the array at `(1, e)`. -/
theorem read_row1 (hs : S2x32000000.Slices ![1, 0] S1x32000000) (hc : S1x32000000.ShapeCasts S32000000)
    (a1 : IVec S2x32000000 32) (e : Fin 32000000) :
    shapeCast S32000000 (extractStridedSlice S1x32000000 ![1, 0] a1 hs) hc (Shape.Idx.ofFin e)
      = a1 (ij (1 : Fin 2) e) := by
  unfold shapeCast
  rw [Shape.reshapeEquiv_cons_one (n := 1) (d := ![32000000]) hc (Shape.Idx.ofFin e)]
  unfold extractStridedSlice
  congr 1
  funext a
  match a with
  | ⟨0, _⟩ => exact Fin.ext rfl
  | ⟨1, _⟩ => exact Fin.ext (Nat.zero_add _)

/-- A row of given words followed by the node numbers, read at edge `e`: the given word below 32000000, the
    node number `e - 32000000` from there on. -/
theorem concat_iota_apply (row : IVec S32000000 32) (hcat : Shape.Concatenates [S32000000, S1000000] S33000000 0)
    (e : Fin Ne) :
    concatenate S33000000 0 [⟨S32000000, row⟩, ⟨S1000000, iotaInDim S1000000 32 0⟩] hcat (Shape.Idx.ofFin e)
      = if h : e.val < 32000000 then row (Shape.Idx.ofFin ⟨e.val, h⟩) else BitVec.ofNat 32 (e.val - 32000000) := by
  by_cases h : e.val < 32000000
  · rw [dif_pos h]
    exact concatenate_pair_apply_left (0 : Fin 1) row (iotaInDim S1000000 32 0) hcat (Shape.Idx.ofFin e) rfl
      (Shape.Idx.ofFin ⟨e.val, h⟩) (fun _ => rfl)
  · rw [dif_neg h]
    have he : e.val < 33000000 := e.isLt
    have h2 : e.val - 32000000 < 1000000 := by omega
    rw [concatenate_pair_apply_right (0 : Fin 1) row (iotaInDim S1000000 32 0) hcat (Shape.Idx.ofFin e) rfl rfl
      (Shape.Idx.ofFin ⟨e.val - 32000000, h2⟩) (fun b hb => absurd (Subsingleton.elim _ _) hb)
      (by show e.val - 32000000 + 32000000 = e.val; omega)]
    rfl

theorem srcT_apply (a1 : IVec S2x32000000 32) (e : Fin Ne) : srcT a1 (Shape.Idx.ofFin e) = srcF a1 e := by
  unfold srcT srcF
  rw [concat_iota_apply]
  by_cases h : e.val < 32000000
  · rw [dif_pos h, dif_pos h]; exact read_row0 _ _ a1 ⟨e.val, h⟩
  · rw [dif_neg h, dif_neg h]

theorem dstT_apply (a1 : IVec S2x32000000 32) (e : Fin Ne) : dstT a1 (Shape.Idx.ofFin e) = dstF a1 e := by
  unfold dstT dstF
  rw [concat_iota_apply]
  by_cases h : e.val < 32000000
  · rw [dif_pos h, dif_pos h]; exact read_row1 _ _ a1 ⟨e.val, h⟩
  · rw [dif_neg h, dif_neg h]

/-- The target words as a column, read at edge `p`. -/
theorem dcolI_apply (a1 : IVec S2x32000000 32) (p : Fin Ne) : dcolI a1 (ixP p) = dstF a1 p := by
  unfold dcolI
  rw [bcast_col1, dstT_apply]

/-! ## The wrapped index, its column, and the in-range mask -/

theorem wrapT_apply (idx : IVec S33000000 32) (i : S33000000.Idx) : wrapT idx i = wrap (idx i) := rfl

theorem colT_apply (idx : IVec S33000000 32) (e : Fin Ne) :
    colT idx (ixP e) = wrap (idx (Shape.Idx.ofFin e)) := by
  unfold colT
  rw [bcast_col1, wrapT_apply]

/-- A left fold by `and` over one-bit words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

/-- Where the wrapped index, read signed, lies in `[0, 999999]` the mask is 1: the reduced axis has one element,
    and there both comparisons hold. -/
theorem maskT_apply (idx : IVec S33000000 32) (e : Fin Ne)
    (hm : 0 ≤ (wrap (idx (Shape.Idx.ofFin e))).toInt ∧ (wrap (idx (Shape.Idx.ofFin e))).toInt ≤ 999999) :
    maskT idx (Shape.Idx.ofFin e) = 1#1 := by
  unfold maskT
  rw [Host.reduce_eq_foldl]
  refine foldl_andi_one _ _ fun i hi => ?_
  have hd := of_decide_eq_true (List.mem_filter.1 hi).2
  -- the only index of the column over position `e` is `(e, 0)`
  have hi0 : i = ixP e := by
    funext a
    match a with
    | ⟨0, _⟩ =>
      apply Fin.ext
      have h0 := Shape.ReducesTo.drop_apply_val_of_eq Facts₀.reducesTo_S33000000x1_S33000000_d1 i (0 : Fin 1) (0 : Fin 2)
        (by decide) (by decide)
      rw [hd] at h0
      exact h0.symm
    | ⟨1, h1'⟩ =>
      apply Fin.ext
      have h1 : (i ⟨1, h1'⟩).val < 1 := (i ⟨1, h1'⟩).isLt
      show (i ⟨1, h1'⟩).val = 0
      omega
  subst hi0
  show IntOp.andi (IntOp.cmpi .sge (colT idx (ixP e)) 0#32) (IntOp.cmpi .sle (colT idx (ixP e)) 999999#32) = 1#1
  rw [colT_apply, IntOp.andi_eq_one, IntOp.cmpi_sge, IntOp.cmpi_sle]
  have z : (0#32 : BitVec 32).toInt = 0 := by decide
  have m : (999999#32 : BitVec 32).toInt = 999999 := by decide
  rw [z, m]
  exact hm

/-! ## The takes -/

/-- A vector laid along the first axis of an `[n × m]` rectangle reads, at `(p, q)`, the vector at `p`. -/
theorem bcast_vec_rows {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ij p q) = v (Shape.Idx.ofFin p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- Where the wrapped index is in range, the take of two-column rows reads the row the index names. -/
theorem take2T_apply (x : FVec Ideal S1000000x2 .f32) (idx : IVec S33000000 32) (e : Fin Ne) (j : Fin 2)
    (hm : 0 ≤ (wrap (idx (Shape.Idx.ofFin e))).toInt ∧ (wrap (idx (Shape.Idx.ofFin e))).toInt ≤ 999999) :
    take2T x idx (ij e j) = x (ij (gidx (idx (Shape.Idx.ofFin e))) j) := by
  unfold take2T
  rw [select_apply, bcast_vec_rows, maskT_apply idx e hm, select_one,
    Cert.Rows.gather_rows _ rfl rfl rfl rfl rfl x (colT idx) e j (by decide)]
  congr 2
  apply Fin.ext
  show min (colT idx (ixP e)).toInt.toNat (1000000 - 1) = min (wrap (idx (Shape.Idx.ofFin e))).toInt.toNat 999999
  rw [colT_apply]

/-- Likewise the take of one-column rows. -/
theorem take1T_apply (x : FVec Ideal S1000000x1 .f32) (idx : IVec S33000000 32) (e : Fin Ne) (q : Fin 1)
    (hm : 0 ≤ (wrap (idx (Shape.Idx.ofFin e))).toInt ∧ (wrap (idx (Shape.Idx.ofFin e))).toInt ≤ 999999) :
    take1T x idx (ij e q) = x (ij (gidx (idx (Shape.Idx.ofFin e))) q) := by
  unfold take1T
  rw [select_apply, bcast_vec_rows, maskT_apply idx e hm, select_one,
    Cert.Rows.gather_rows _ rfl rfl rfl rfl rfl x (colT idx) e q (by decide)]
  congr 2
  apply Fin.ext
  show min (colT idx (ixP e)).toInt.toNat (1000000 - 1) = min (wrap (idx (Shape.Idx.ofFin e))).toInt.toNat 999999
  rw [colT_apply]

/-! ## The normalisation column, the scaled features, the biases -/

theorem dcolT_apply (a1 : IVec S2x32000000 32) (n : Fin Nn) : dcolT a1 (ixP n) = DK a1 n := by
  unfold dcolT DK
  exact bcast_col1 _ _ n

theorem xsT_apply (a0 : FVec Ideal S1000000x2 .f32) (a1 : IVec S2x32000000 32) (n : Fin Nn) (j : Fin 2) :
    xsT a0 a1 (ij n j) = xF a0 n j * DK a1 n := by
  unfold xsT
  rw [mulf_apply, bcast_of_col, dcolT_apply]
  rfl

/-- The zero array reads zero everywhere. -/
theorem zeros_apply {t : Shape} (h : S_.BroadcastsInDim t (![] : Fin 0 → Fin t.rank)) (j : t.Idx) :
    broadcastInDim t ![] h (constant (F := Ideal) S_ .f32 0x00000000#32) j = 0 := by
  rw [bcast_scalar h Facts₀.h_S_]
  exact Ideal.ofBits_zero_f32

/-- The index `(p, 0)` of a one-column array, in its two spellings. -/
theorem ixP_eq_ij {n : Nat} (p : Fin n) : ixP p = ij p (0 : Fin 1) := by
  funext a
  match a with
  | ⟨0, _⟩ => rfl
  | ⟨1, _⟩ => rfl

/-- A vector recast as a one-row array reads, at `(0, k)`, the vector at `k`. -/
theorem shapeCast_row_apply {α : Type} {m : Nat} (h : (⟨1, ![m]⟩ : Shape).ShapeCasts ⟨2, ![1, m]⟩)
    (a : (⟨1, ![m]⟩ : Shape).Idx → α) (k : Fin m) :
    shapeCast ⟨2, ![1, m]⟩ a h (ij (0 : Fin 1) k) = a (Shape.Idx.ofFin k) := by
  unfold shapeCast
  congr 1
  have e1 := Shape.reshapeEquiv_cons_one (n := 1) (d := ![m]) h.symm (Shape.Idx.ofFin k)
  have e2 : (ij (0 : Fin 1) k : (⟨2, ![1, m]⟩ : Shape).Idx) = Fin.cons ⟨0, Nat.one_pos⟩ (Shape.Idx.ofFin k) := by
    funext b
    match b with
    | ⟨0, _⟩ => rfl
    | ⟨1, _⟩ => exact Fin.ext rfl
  rw [e2, ← e1, Shape.reshapeEquiv_reshapeEquiv, Shape.reshapeEquiv_self]

/-! ## The two aggregations and the two dense stages -/

/-- The edges whose target column entry, read signed, is `n` are the edges landing on `n`. -/
theorem filter_dcolI (a1 : IVec S2x32000000 32) (n : Fin Nn) :
    Finset.univ.filter (fun p : Fin Ne => (dcolI a1 (ixP p)).toInt = (n.val : ℤ)) = lands (dstF a1) n := by
  unfold lands
  exact Finset.filter_congr fun p _ => by rw [dcolI_apply]

section
variable (a0 : FVec Ideal S1000000x2 .f32) (a1 : IVec S2x32000000 32) (a2 : FVec Ideal S2x8 .f32) (a3 : FVec Ideal S8 .f32)
  (a4 : FVec Ideal S8x1 .f32)
  (hmask : ∀ e : Fin Ne, 0 ≤ (wrap (srcF a1 e)).toInt ∧ (wrap (srcF a1 e)).toInt ≤ 999999)
include hmask

theorem aggxT_apply (n : Fin Nn) (j : Fin 2) :
    aggxT a0 a1 (ij n j) = aggK (xF a0) (DK a1) (srcF a1) (dstF a1) n j := by
  unfold aggxT aggK
  rw [Cert.Rows.scatterAdd_rows _ rfl rfl rfl rfl, zeros_apply, zero_add, filter_dcolI a1 n]
  refine Finset.sum_congr rfl fun e _ => ?_
  rw [take2T_apply _ _ e j (by rw [srcT_apply]; exact hmask e), srcT_apply, xsT_apply]

theorem hs2T_apply (n : Fin Nn) :
    hs2T a0 a1 a2 a3 a4 (ixP n)
      = hs2K (xF a0) (W1F a2) (b1F a3) (W2F a4) (DK a1) (srcF a1) (dstF a1) n := by
  unfold hs2T L1 hs2K hidK
  show dcolT a1 (ixP n) * ∑ k : Fin 8,
      max (dcolT a1 (ixP n) * (∑ j : Fin 2, aggxT a0 a1 (ij n j) * a2 (ij j k))
        + shapeCast S1x8 a3 Facts₀.shapeCasts_S8_S1x8 (ij (0 : Fin 1) k)) 0 * a4 (ixP k)
    = DK a1 n * ∑ k : Fin 8,
      max (DK a1 n * (∑ j : Fin 2, aggK (xF a0) (DK a1) (srcF a1) (dstF a1) n j * W1F a2 j k) + b1F a3 k) 0 * W2F a4 k
  rw [dcolT_apply]
  refine congrArg (fun t => DK a1 n * t) (Finset.sum_congr rfl fun k _ => ?_)
  have hs : ∑ j : Fin 2, aggxT a0 a1 (ij n j) * a2 (ij j k)
      = ∑ j : Fin 2, aggK (xF a0) (DK a1) (srcF a1) (dstF a1) n j * W1F a2 j k :=
    Finset.sum_congr rfl fun j _ => by rw [aggxT_apply a0 a1 hmask n j]; rfl
  rw [shapeCast_row_apply, hs]
  rfl

theorem agg2T_apply (n : Fin Nn) :
    agg2T a0 a1 a2 a3 a4 (ixP n)
      = ∑ e ∈ lands (dstF a1) n,
          hs2K (xF a0) (W1F a2) (b1F a3) (W2F a4) (DK a1) (srcF a1) (dstF a1) (gidx (srcF a1 e)) := by
  unfold agg2T
  rw [ixP_eq_ij, Cert.Rows.scatterAdd_rows _ rfl rfl rfl rfl, zeros_apply, zero_add, filter_dcolI a1 n]
  refine Finset.sum_congr rfl fun e _ => ?_
  rw [take1T_apply _ _ e 0 (by rw [srcT_apply]; exact hmask e), srcT_apply, ← ixP_eq_ij,
    hs2T_apply a0 a1 a2 a3 a4 hmask]

end

theorem outT_apply (a0 : FVec Ideal S1000000x2 .f32) (a1 : IVec S2x32000000 32) (a2 : FVec Ideal S2x8 .f32) (a3 : FVec Ideal S8 .f32)
    (a4 : FVec Ideal S8x1 .f32) (a5 : FVec Ideal S1 .f32)
    (hmask : ∀ e : Fin Ne, 0 ≤ (wrap (srcF a1 e)).toInt ∧ (wrap (srcF a1 e)).toInt ≤ 999999) (n : Fin Nn) :
    outT a0 a1 a2 a3 a4 a5 (ixP n)
      = outK (xF a0) (W1F a2) (b1F a3) (W2F a4) (b2F a5) (DK a1) (srcF a1) (dstF a1) n := by
  unfold outT L2 outK
  show Ideal.logistic (dcolT a1 (ixP n) * agg2T a0 a1 a2 a3 a4 (ixP n)
      + shapeCast S1x1 a5 Facts₀.shapeCasts_S1_S1x1 (ij (0 : Fin 1) (0 : Fin 1)))
    = Ideal.logistic (DK a1 n * (∑ e ∈ lands (dstF a1) n,
        hs2K (xF a0) (W1F a2) (b1F a3) (W2F a4) (DK a1) (srcF a1) (dstF a1) (gidx (srcF a1 e))) + b2F a5)
  rw [dcolT_apply, agg2T_apply a0 a1 a2 a3 a4 hmask n, shapeCast_row_apply]
  rfl

end Cert.KernelIdeal.Idx

end
-- ==== Proof.KFacts.lean ====
/-
  Two facts about the edge words and the degree normalisation.

  The degree of a node is the number of edges landing on it: a scatter-add of ones into zeros, so a non-negative real.
  The normalisation is the inverse square root of max (degree, 1) where the degree is positive and zero elsewhere:
  max (degree, 1) is a real at least one, its square root is positive, so the inverse is a real; zero is a real.

  A source word in [0, 1000000) is not negative, so the wrap leaves it alone; a self-loop's source word is its node
  number, below 1000000.
-/
import proofs.«410824_j56633438765476_3_alg».proof.Proof.KTerm
import proofs.«410824_j56633438765476_3_alg».proof.Proof.Edges
import proofs.«410824_j56633438765476_3_alg».proof.Proof.Rows
import proofs.«410824_j56633438765476_3_alg».proof.Proof.Law
import Idealize.ShloMosaic.Lib.StableHlo.Predicate
import Idealize.ShloMosaic.Lib.IdealHost
import Idealize.ShloMosaic.PureOps.Ideal

noncomputable section

namespace Cert.KernelIdeal.Facts2

open Cert.KernelIdeal Cert.KernelIdeal.Term Cert.Spec Idealize.ShloMosaic Idealize.ShloMosaic.StableHlo.Predicate

/-- The zero constant broadcast to any shape is zero everywhere. -/
theorem zeros_eq {t : Shape} (h : S_.BroadcastsInDim t ![]) :
    broadcastInDim t ![] h (constant (F := Ideal) S_ .f32 0x00000000#32) = fun _ => (0 : EReal) := by
  funext j
  rw [bcast_scalar h (by decide)]
  exact Ideal.ofBits_zero_f32

/-- The one constant broadcast to any shape is one everywhere. -/
theorem ones_eq {t : Shape} (h : S_.BroadcastsInDim t ![]) :
    broadcastInDim t ![] h (constant (F := Ideal) S_ .f32 0x3F800000#32) = fun _ => (1 : EReal) := by
  funext j
  rw [bcast_scalar h (by decide)]
  exact Ideal.ofBits_one_f32

/-- The degree is a count: a non-negative real at every node. -/
theorem degT_real (a1 : IVec S2x32000000 32) (i : S1000000.Idx) : ∃ r : ℝ, 0 ≤ r ∧ degT a1 i = (r : EReal) := by
  unfold degT
  rw [zeros_eq, ones_eq]
  exact Cert.Rows.scatterAdd_ones_isReal _ _ i

/-- The inverse square root of the maximum of a non-negative real and one is a real. -/
theorem rsqrt_max_one_isReal (r : ℝ) : Cert.Law.IsReal (Ideal.rsqrt (max ((r : ℝ) : EReal) 1)) := by
  have hm : max ((r : ℝ) : EReal) 1 = ((max r 1 : ℝ) : EReal) := by
    rw [← EReal.coe_one]; exact (EReal.coe_strictMono.monotone.map_max).symm
  have h1 : (1 : ℝ) ≤ max r 1 := le_max_right r 1
  rw [hm, Ideal.rsqrt_coe, if_neg (by linarith), if_neg (by linarith)]
  exact ⟨_, rfl⟩

/-- A selection between the inverse square root of max (d, 1) and zero is a real wherever d is a real, whichever
    branch the comparison picks. -/
theorem select_rsqrt_isReal {s : Shape} (d one zero zero' : FVec Ideal s .f32) (i : s.Idx) (r : ℝ)
    (hd : d i = (r : EReal)) (h1 : one i = (1 : EReal)) (h0 : zero' i = (0 : EReal)) :
    Cert.Law.IsReal (select (cmpf (F := Ideal) .ogt d zero) (Host.rsqrt (maximumf d one)) zero' i) := by
  show Cert.Law.IsReal (Scalar.select (FloatOps.cmpf .ogt (d i) (zero i))
    (FloatOps.hostUnary .rsqrt (FloatOps.maximumf (d i) (one i))) (zero' i))
  rw [hd, h1, h0, Ideal.hostUnary_rsqrt_def, Ideal.maximumf_def]
  unfold Scalar.select
  split
  · exact rsqrt_max_one_isReal r
  · exact Cert.Law.IsReal.zero

/-- The normalisation is a real at every node: the degree is a count (a non-negative real), its maximum with one is a real at least one, the inverse square root of that is a real, and the other branch is zero. -/
theorem dinvT_isReal (a1 : IVec S2x32000000 32) (i : S1000000.Idx) : Cert.Law.IsReal (dinvT a1 i) := by
  obtain ⟨r, hr0, hr⟩ := degT_real a1 i
  unfold dinvT
  exact select_rsqrt_isReal _ _ _ _ i r hr (congrFun (ones_eq _) i) (congrFun (zeros_eq _) i)

/-- A word that is not negative is left alone by the wrap. -/
theorem wrap_of_nonneg (v : BitVec 32) (hv : 0 ≤ v.toInt) : wrap v = v := by
  unfold wrap
  rw [if_neg]
  unfold IntOp.cmpi
  rw [ofBool_eq_one_iff]
  simp only [BitVec.slt, BitVec.toInt_zero, decide_eq_true_eq]
  omega

/-- In-range source words stay in range after the wrap: the given edges by hypothesis, the self-loops because they are node numbers. -/
theorem wrap_src_range (a1 : IVec S2x32000000 32)
    (h : ∀ e : Fin 32000000, 0 ≤ (a1 (ij (0 : Fin 2) e)).toInt ∧ (a1 (ij (0 : Fin 2) e)).toInt < 1000000) :
    ∀ e : Fin Ne, 0 ≤ (wrap (srcF a1 e)).toInt ∧ (wrap (srcF a1 e)).toInt ≤ 999999 := by
  intro e
  have he : e.val < 33000000 := e.isLt
  have hs : 0 ≤ (srcF a1 e).toInt ∧ (srcF a1 e).toInt < 1000000 := by
    unfold srcF
    split
    · exact h _
    · rw [toInt_ofNat_small _ (by omega)]; omega
  rw [wrap_of_nonneg _ hs.1]
  omega

end Cert.KernelIdeal.Facts2

end
-- ==== Proof.RefValue.lean ====
import proofs.«410824_j56633438765476_3_alg».proof.Defs
import proofs.«410824_j56633438765476_3_alg».proof.Proof.Gen.ReferenceIdeal
import proofs.«410824_j56633438765476_3_alg».proof.Proof.RefReadP
import proofs.«410824_j56633438765476_3_alg».proof.Proof.Edges
import proofs.«410824_j56633438765476_3_alg».proof.Proof.Rows
import Idealize.ShloMosaic.Lib.StableHlo.Predicate
import Idealize.ShloMosaic.Lib.Pipeline.Value
import Idealize.ShloMosaic.Lib.IdealHost
import Idealize.ShloMosaic.PureOps.Ideal.Laws

noncomputable section

/-!
  The reference program's result, read at one node as the mathematics it computes.

  The program builds the edge list (32000000 given edges, then one self-loop per node), wraps and clamps every index
  word it gathers through, multiplies each edge message by the product of the two ends' degree normalisations, adds
  the messages landing on each node (a target word outside the node range lands nowhere), and applies the two dense
  stages. Each operation is read at one index; the chain of those reads is the closed form.
-/

namespace Cert.RefValue

open Cert.ReferenceIdeal Cert.ReferenceIdeal.RunP Cert.ReferenceIdeal.ReadP Cert.Spec Idealize.ShloMosaic Idealize.ShloMosaic.StableHlo.Predicate

/-! ## Indices by their coordinates -/

/-- A rank-1 index is the index at its coordinate. -/
theorem idx1_eq {n : Nat} (i : (⟨1, ![n]⟩ : Shape).Idx) (k : Fin n) (h : (i 0).val = k.val) : i = Shape.Idx.ofFin k :=
  funext fun a => match a with | ⟨0, _⟩ => Fin.ext h

/-- A rank-2 index is (its row, its column). -/
theorem idx2_eq {n m : Nat} (i : (⟨2, ![n, m]⟩ : Shape).Idx) (p : Fin n) (q : Fin m) (h0 : (i 0).val = p.val)
    (h1 : (i 1).val = q.val) : i = ij p q :=
  funext fun a => match a with | ⟨0, _⟩ => Fin.ext h0 | ⟨1, _⟩ => Fin.ext h1

/-- An index of an [n × 1] column is its row. -/
theorem idxP_eq {n : Nat} (i : (⟨2, ![n, 1]⟩ : Shape).Idx) (p : Fin n) (h0 : (i 0).val = p.val) : i = ixP p :=
  funext fun a => match a with
    | ⟨0, _⟩ => Fin.ext h0
    | ⟨1, h1⟩ => Fin.ext (by have h : (i ⟨1, h1⟩).val < 1 := (i ⟨1, h1⟩).isLt; show (i ⟨1, h1⟩).val = 0; omega)

/-- Row p of an [n × 1] column is (p, 0). -/
theorem ixP_eq_ij {n : Nat} (p : Fin n) : (ixP p : (⟨2, ![n, 1]⟩ : Shape).Idx) = ij p (0 : Fin 1) :=
  funext fun a => match a with | ⟨0, _⟩ => rfl | ⟨1, _⟩ => rfl

/-! ## The edge words -/

/-- The source word of edge e: row 0 of the edge array below 32000000, the node's own number on a self-loop. -/
theorem val_v3_read (a1 : (⟨S2x32000000, .i32⟩ : BufTy).Contents (Elt Ideal)) (e : Fin Ne) :
    val_main_v3 (F := Ideal) a1 (Shape.Idx.ofFin e) = srcF a1 e := by
  unfold val_main_v3 srcF
  by_cases hlt : e.val < 32000000
  · rw [dif_pos hlt]
    refine (concatenate_pair_apply_left _ (val_main_v2 (F := Ideal) a1) (val_main_v0 (F := Ideal)) _ (Shape.Idx.ofFin e) rfl
      (Shape.Idx.ofFin ⟨e.val, hlt⟩) (fun b => match b with | ⟨0, _⟩ => rfl)).trans ?_
    rw [val_main_v2_apply, val_main_v1_apply]
    exact congrArg a1 (idx2_eq _ _ _ rfl (Nat.mod_eq_of_lt hlt))
  · rw [dif_neg hlt]
    have hlt2 : e.val - 32000000 < 1000000 := by have h33 : e.val < 33000000 := e.isLt; omega
    refine (concatenate_pair_apply_right _ (val_main_v2 (F := Ideal) a1) (val_main_v0 (F := Ideal)) _ (Shape.Idx.ofFin e) rfl rfl
      (Shape.Idx.ofFin ⟨e.val - 32000000, hlt2⟩) (fun b hb => absurd (Fin.ext (by have h1 : b.val < 1 := b.isLt; show b.val = 0; omega)) hb)
      (by show (e.val - 32000000) + 32000000 = e.val; omega)).trans ?_
    rfl

/-- The target word of edge e: row 1 of the edge array below 32000000, the node's own number on a self-loop. -/
theorem val_v6_read (a1 : (⟨S2x32000000, .i32⟩ : BufTy).Contents (Elt Ideal)) (e : Fin Ne) :
    val_main_v6 (F := Ideal) a1 (Shape.Idx.ofFin e) = dstF a1 e := by
  unfold val_main_v6 dstF
  by_cases hlt : e.val < 32000000
  · rw [dif_pos hlt]
    refine (concatenate_pair_apply_left _ (val_main_v5 (F := Ideal) a1) (val_main_v0 (F := Ideal)) _ (Shape.Idx.ofFin e) rfl
      (Shape.Idx.ofFin ⟨e.val, hlt⟩) (fun b => match b with | ⟨0, _⟩ => rfl)).trans ?_
    rw [val_main_v5_apply, val_main_v4_apply]
    exact congrArg a1 (idx2_eq _ _ _ rfl (Nat.mod_eq_of_lt hlt))
  · rw [dif_neg hlt]
    have hlt2 : e.val - 32000000 < 1000000 := by have h33 : e.val < 33000000 := e.isLt; omega
    refine (concatenate_pair_apply_right _ (val_main_v5 (F := Ideal) a1) (val_main_v0 (F := Ideal)) _ (Shape.Idx.ofFin e) rfl rfl
      (Shape.Idx.ofFin ⟨e.val - 32000000, hlt2⟩) (fun b hb => absurd (Fin.ext (by have h1 : b.val < 1 := b.isLt; show b.val = 0; omega)) hb)
      (by show (e.val - 32000000) + 32000000 = e.val; omega)).trans ?_
    rfl

/-! ## The wrap of an index word, and the index columns -/

/-- The select "negative ? word + 1000000 : word" is the wrap. -/
theorem select_wrap (v : BitVec 32) :
    Scalar.select (IntOp.cmpi .slt v 0#32) (IntOp.addi v 1000000#32) v = wrap v := rfl

theorem val_v21_read (a1 : (⟨S2x32000000, .i32⟩ : BufTy).Contents (Elt Ideal)) (e : Fin Ne) :
    val_main_v21 (F := Ideal) a1 (Shape.Idx.ofFin e) = wrap (srcF a1 e) := by
  rw [val_main_v21_apply, val_main_v18_apply, val_main_v20_apply, val_main_v17_apply, val_main_v19_apply, val_main_c_apply,
    val_main_c_4_apply, val_v3_read]
  exact select_wrap _

theorem val_v28_read (a1 : (⟨S2x32000000, .i32⟩ : BufTy).Contents (Elt Ideal)) (e : Fin Ne) :
    val_main_v28 (F := Ideal) a1 (Shape.Idx.ofFin e) = wrap (dstF a1 e) := by
  rw [val_main_v28_apply, val_main_v25_apply, val_main_v27_apply, val_main_v24_apply, val_main_v26_apply, val_main_c_5_apply,
    val_main_c_6_apply, val_v6_read]
  exact select_wrap _

theorem val_v37_read (a1 : (⟨S2x32000000, .i32⟩ : BufTy).Contents (Elt Ideal)) (e : Fin Ne) :
    val_main_v37 (F := Ideal) a1 (Shape.Idx.ofFin e) = wrap (srcF a1 e) := by
  rw [val_main_v37_apply, val_main_v34_apply, val_main_v36_apply, val_main_v33_apply, val_main_v35_apply, val_main_c_7_apply,
    val_main_c_8_apply, val_v3_read]
  exact select_wrap _

theorem val_v55_read (a1 : (⟨S2x32000000, .i32⟩ : BufTy).Contents (Elt Ideal)) (e : Fin Ne) :
    val_main_v55 (F := Ideal) a1 (Shape.Idx.ofFin e) = wrap (srcF a1 e) := by
  rw [val_main_v55_apply, val_main_v52_apply, val_main_v54_apply, val_main_v51_apply, val_main_v53_apply, val_main_c_10_apply,
    val_main_c_11_apply, val_v3_read]
  exact select_wrap _

/-- The wrapped source words as a column (the start indices of the first normalisation take). -/
theorem val_v22_read (a1 : (⟨S2x32000000, .i32⟩ : BufTy).Contents (Elt Ideal)) (p : Fin Ne) :
    val_main_v22 (F := Ideal) a1 (ixP p) = wrap (srcF a1 p) := by
  rw [val_main_v22_apply, show idx_main_v22 (ixP p) = Shape.Idx.ofFin p from idx1_eq _ _ rfl, val_v21_read]

/-- The wrapped target words as a column (the start indices of the second normalisation take). -/
theorem val_v29_read (a1 : (⟨S2x32000000, .i32⟩ : BufTy).Contents (Elt Ideal)) (p : Fin Ne) :
    val_main_v29 (F := Ideal) a1 (ixP p) = wrap (dstF a1 p) := by
  rw [val_main_v29_apply, show idx_main_v29 (ixP p) = Shape.Idx.ofFin p from idx1_eq _ _ rfl, val_v28_read]

/-- The wrapped source words as a column (the start indices of the layer-1 row gather). -/
theorem val_v38_read (a1 : (⟨S2x32000000, .i32⟩ : BufTy).Contents (Elt Ideal)) (p : Fin Ne) :
    val_main_v38 (F := Ideal) a1 (ixP p) = wrap (srcF a1 p) := by
  rw [val_main_v38_apply, show idx_main_v38 (ixP p) = Shape.Idx.ofFin p from idx1_eq _ _ rfl, val_v37_read]

/-- The wrapped source words as a column (the start indices of the layer-2 row gather). -/
theorem val_v56_read (a1 : (⟨S2x32000000, .i32⟩ : BufTy).Contents (Elt Ideal)) (p : Fin Ne) :
    val_main_v56 (F := Ideal) a1 (ixP p) = wrap (srcF a1 p) := by
  rw [val_main_v56_apply, show idx_main_v56 (ixP p) = Shape.Idx.ofFin p from idx1_eq _ _ rfl, val_v55_read]

/-- The target words as a column (the scatter indices of both aggregations). -/
theorem val_v44_read (a1 : (⟨S2x32000000, .i32⟩ : BufTy).Contents (Elt Ideal)) (p : Fin Ne) :
    val_main_v44 (F := Ideal) a1 (ixP p) = dstF a1 p := by
  rw [val_main_v44_apply, show idx_main_v44 (ixP p) = Shape.Idx.ofFin p from idx1_eq _ _ rfl, val_v6_read]

theorem val_v61_read (a1 : (⟨S2x32000000, .i32⟩ : BufTy).Contents (Elt Ideal)) (p : Fin Ne) :
    val_main_v61 (F := Ideal) a1 (ixP p) = dstF a1 p := by
  rw [val_main_v61_apply, show idx_main_v61 (ixP p) = Shape.Idx.ofFin p from idx1_eq _ _ rfl, val_v6_read]

/-! ## The degree normalisation at the two ends of an edge -/

/-- The reference's degree normalisation, node by node. -/
def DR (a1 : (⟨S2x32000000, .i32⟩ : BufTy).Contents (Elt Ideal)) : Fin Nn → EReal :=
  fun n => val_main_v16 (F := Ideal) a1 (Shape.Idx.ofFin n)

/-- A clamped row number, once its start index is known to be the wrap of a word, is that word's row. -/
theorem clamp_gidx (w v : BitVec 32) (h : w = wrap v) (hlt : min w.toInt.toNat (1000000 - 1) < 1000000) :
    (⟨min w.toInt.toNat (1000000 - 1), hlt⟩ : Fin 1000000) = gidx v := by
  subst h; exact Fin.ext rfl

/-- The normalisation taken at an edge's source. -/
theorem val_v23_read (a1 : (⟨S2x32000000, .i32⟩ : BufTy).Contents (Elt Ideal)) (p : Fin Ne) :
    val_main_v23 (F := Ideal) a1 (Shape.Idx.ofFin p) = DR a1 (gidx (srcF a1 p)) := by
  unfold val_main_v23
  refine (gather_take gather_S1000000_S33000000x1_S33000000_n_0_n_n_0_1_1 rfl rfl rfl rfl (val_main_v16 (F := Ideal) a1)
    (val_main_v22 (F := Ideal) a1) p (by decide)).trans ?_
  rw [clamp_gidx _ _ (val_v22_read a1 p)]
  rfl

/-- The normalisation taken at an edge's target. -/
theorem val_v30_read (a1 : (⟨S2x32000000, .i32⟩ : BufTy).Contents (Elt Ideal)) (p : Fin Ne) :
    val_main_v30 (F := Ideal) a1 (Shape.Idx.ofFin p) = DR a1 (gidx (dstF a1 p)) := by
  unfold val_main_v30
  refine (gather_take gather_S1000000_S33000000x1_S33000000_n_0_n_n_0_1_1 rfl rfl rfl rfl (val_main_v16 (F := Ideal) a1)
    (val_main_v29 (F := Ideal) a1) p (by decide)).trans ?_
  rw [clamp_gidx _ _ (val_v29_read a1 p)]
  rfl

/-- An edge's normalisation: the product of its two ends'. -/
theorem val_v31_read (a1 : (⟨S2x32000000, .i32⟩ : BufTy).Contents (Elt Ideal)) (p : Fin Ne) :
    val_main_v31 (F := Ideal) a1 (Shape.Idx.ofFin p) = nrm (DR a1) (srcF a1) (dstF a1) p := by
  rw [val_main_v31_apply, val_v23_read, val_v30_read]
  rfl

/-! ## Layer one: transform, gather, scale, aggregate, bias, rectify -/

/-- The first transform at node g, hidden unit k. -/
theorem val_v32_read (a0 : (⟨S1000000x2, .f32⟩ : BufTy).Contents (Elt Ideal)) (a2 : (⟨S2x8, .f32⟩ : BufTy).Contents (Elt Ideal))
    (g : Fin Nn) (k : Fin 8) :
    val_main_v32 (F := Ideal) a0 a2 (ij g k) = ∑ j : Fin 2, xF a0 g j * W1F a2 j k := by
  rw [val_main_v32_apply]
  refine Finset.sum_congr rfl fun j _ => ?_
  rw [show lidx_main_v32 (ij g k) j = ij g j from idx2_eq _ _ _ rfl rfl,
    show ridx_main_v32 (ij g k) j = ij j k from idx2_eq _ _ _ rfl rfl]
  rfl

/-- The transformed features gathered along edge p: those of the row its source word reads. -/
theorem val_v39_read (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (p : Fin Ne) (k : Fin 8) :
    val_main_v39 (F := Ideal) a0 a1 a2 (ij p k) = ∑ j : Fin 2, xF a0 (gidx (srcF a1 p)) j * W1F a2 j k := by
  unfold val_main_v39
  refine (Cert.Rows.gather_rows gather_S1000000x8_S33000000x1_S33000000x8_1_0_n_n_0_1_18 rfl rfl rfl rfl rfl
    (val_main_v32 (F := Ideal) a0 a2) (val_main_v38 (F := Ideal) a1) p k (by decide)).trans ?_
  rw [clamp_gidx _ _ (val_v38_read a1 p)]
  exact val_v32_read a0 a2 _ k

/-- The edge normalisation spread over the 8 hidden units. -/
theorem val_v41_read (a1 : (⟨S2x32000000, .i32⟩ : BufTy).Contents (Elt Ideal)) (p : Fin Ne) (k : Fin 8) :
    val_main_v41 (F := Ideal) a1 (ij p k) = nrm (DR a1) (srcF a1) (dstF a1) p := by
  rw [val_main_v41_apply, val_main_v40_apply,
    show idx_main_v40 (idx_main_v41 (ij p k)) = Shape.Idx.ofFin p from idx1_eq _ _ rfl, val_v31_read]

/-- The layer-1 aggregation at node n, hidden unit k: the scaled messages of the edges landing on n. -/
theorem val_v45_read (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (n : Fin Nn) (k : Fin 8) :
    val_main_v45 (F := Ideal) a0 a1 a2 (ij n k)
      = ∑ e ∈ lands (dstF a1) n, (∑ j : Fin 2, xF a0 (gidx (srcF a1 e)) j * W1F a2 j k) * nrm (DR a1) (srcF a1) (dstF a1) e := by
  unfold val_main_v45
  refine (Cert.Rows.scatterAdd_rows (φ := .f32) scatter_S1000000x8_S33000000x1_S33000000x8_1_0_0_1 rfl rfl rfl rfl
    (val_main_v43 (F := Ideal)) (val_main_v44 (F := Ideal) a1) (val_main_v42 (F := Ideal) a0 a1 a2) n k).trans ?_
  rw [val_main_v43_apply, val_main_cst_9_apply, Ideal.ofBits_def, Ideal.ofBits_zero_f32, zero_add]
  unfold lands
  refine Finset.sum_congr (Finset.filter_congr fun p _ => by rw [val_v44_read]) fun p _ => ?_
  rw [val_main_v42_apply, val_v39_read, val_v41_read]
  rfl

/-- The first bias spread over the nodes. -/
theorem val_v47_read (a3 : (⟨S8, .f32⟩ : BufTy).Contents (Elt Ideal)) (n : Fin Nn) (k : Fin 8) :
    val_main_v47 (F := Ideal) a3 (ij n k) = b1F a3 k := by
  rw [val_main_v47_apply, val_main_v46_apply,
    show idx_main_v46 (idx_main_v47 (ij n k)) = Shape.Idx.ofFin k from idx1_eq _ _ rfl]
  rfl

/-- The hidden layer at node n, unit k. -/
theorem val_v49_read (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (a3 : (⟨S8, .f32⟩ : BufTy).Contents (Elt Ideal)) (n : Fin Nn) (k : Fin 8) :
    val_main_v49 (F := Ideal) a0 a1 a2 a3 (ij n k)
      = hidR (xF a0) (W1F a2) (b1F a3) (DR a1) (srcF a1) (dstF a1) n k := by
  rw [val_main_v49_apply, val_main_v48_apply, val_v45_read, val_v47_read, val_main_call1_v0_apply, val_main_call1_cst_apply,
    Ideal.ofBits_def, Ideal.ofBits_zero_f32]
  unfold hidR
  rfl

/-! ## Layer two: transform, gather, scale, aggregate, bias, logistic -/

/-- The second transform at node m. -/
theorem val_v50_read (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (a3 : (⟨S8, .f32⟩ : BufTy).Contents (Elt Ideal))
    (a4 : (⟨S8x1, .f32⟩ : BufTy).Contents (Elt Ideal)) (m : Fin Nn) :
    val_main_v50 (F := Ideal) a0 a1 a2 a3 a4 (ixP m)
      = h2R (xF a0) (W1F a2) (b1F a3) (W2F a4) (DR a1) (srcF a1) (dstF a1) m := by
  rw [val_main_v50_apply]
  unfold h2R
  refine Finset.sum_congr rfl fun k _ => ?_
  rw [show lidx_main_v50 (ixP m) k = ij m k from idx2_eq _ _ _ rfl rfl,
    show ridx_main_v50 (ixP m) k = ixP k from idxP_eq _ _ rfl, val_v49_read]
  rfl

/-- The second transform gathered along edge p. -/
theorem val_v57_read (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (a3 : (⟨S8, .f32⟩ : BufTy).Contents (Elt Ideal))
    (a4 : (⟨S8x1, .f32⟩ : BufTy).Contents (Elt Ideal)) (p : Fin Ne) :
    val_main_v57 (F := Ideal) a0 a1 a2 a3 a4 (ij p (0 : Fin 1))
      = h2R (xF a0) (W1F a2) (b1F a3) (W2F a4) (DR a1) (srcF a1) (dstF a1) (gidx (srcF a1 p)) := by
  unfold val_main_v57
  refine (Cert.Rows.gather_rows gather_S1000000x1_S33000000x1_S33000000x1_1_0_n_n_0_1_11 rfl rfl rfl rfl rfl
    (val_main_v50 (F := Ideal) a0 a1 a2 a3 a4) (val_main_v56 (F := Ideal) a1) p (0 : Fin 1) (by decide)).trans ?_
  rw [clamp_gidx _ _ (val_v56_read a1 p), ← ixP_eq_ij]
  exact val_v50_read a0 a1 a2 a3 a4 _

/-- The edge normalisation as a column. -/
theorem val_v58_read (a1 : (⟨S2x32000000, .i32⟩ : BufTy).Contents (Elt Ideal)) (p : Fin Ne) :
    val_main_v58 (F := Ideal) a1 (ij p (0 : Fin 1)) = nrm (DR a1) (srcF a1) (dstF a1) p := by
  rw [val_main_v58_apply, show idx_main_v58 (ij p (0 : Fin 1)) = Shape.Idx.ofFin p from idx1_eq _ _ rfl, val_v31_read]

/-- The layer-2 aggregation at node n. -/
theorem val_v62_read (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (a3 : (⟨S8, .f32⟩ : BufTy).Contents (Elt Ideal))
    (a4 : (⟨S8x1, .f32⟩ : BufTy).Contents (Elt Ideal)) (n : Fin Nn) :
    val_main_v62 (F := Ideal) a0 a1 a2 a3 a4 (ixP n)
      = ∑ e ∈ lands (dstF a1) n,
          h2R (xF a0) (W1F a2) (b1F a3) (W2F a4) (DR a1) (srcF a1) (dstF a1) (gidx (srcF a1 e)) * nrm (DR a1) (srcF a1) (dstF a1) e := by
  rw [ixP_eq_ij n]
  unfold val_main_v62
  refine (Cert.Rows.scatterAdd_rows (φ := .f32) scatter_S1000000x1_S33000000x1_S33000000x1_1_0_0_1 rfl rfl rfl rfl
    (val_main_v60 (F := Ideal)) (val_main_v61 (F := Ideal) a1) (val_main_v59 (F := Ideal) a0 a1 a2 a3 a4) n (0 : Fin 1)).trans ?_
  rw [val_main_v60_apply, val_main_cst_12_apply, Ideal.ofBits_def, Ideal.ofBits_zero_f32, zero_add]
  unfold lands
  refine Finset.sum_congr (Finset.filter_congr fun p _ => by rw [val_v61_read]) fun p _ => ?_
  rw [val_main_v59_apply, val_v57_read, val_v58_read]
  rfl

/-- The second bias spread over the nodes. -/
theorem val_v64_read (a5 : (⟨S1, .f32⟩ : BufTy).Contents (Elt Ideal)) (n : Fin Nn) :
    val_main_v64 (F := Ideal) a5 (ixP n) = b2F a5 := by
  rw [val_main_v64_apply, val_main_v63_apply,
    show idx_main_v63 (idx_main_v64 (ixP n)) = Shape.Idx.ofFin (0 : Fin 1) from idx1_eq _ _ rfl]
  rfl

/-- The reference's result at node n is the closed form with the normalisation on every edge message. -/
theorem val_out_eq (a0 : (⟨S1000000x2, .f32⟩ : BufTy).Contents (Elt Ideal)) (a1 : (⟨S2x32000000, .i32⟩ : BufTy).Contents (Elt Ideal))
    (a2 : (⟨S2x8, .f32⟩ : BufTy).Contents (Elt Ideal)) (a3 : (⟨S8, .f32⟩ : BufTy).Contents (Elt Ideal))
    (a4 : (⟨S8x1, .f32⟩ : BufTy).Contents (Elt Ideal)) (a5 : (⟨S1, .f32⟩ : BufTy).Contents (Elt Ideal)) (n : Fin Nn) :
    val_main_v71 (F := Ideal) a0 a1 a2 a3 a4 a5 (ixP n)
      = outR (xF a0) (W1F a2) (b1F a3) (W2F a4) (b2F a5) (DR a1) (srcF a1) (dstF a1) n := by
  rw [val_main_v71_apply, val_main_v69_apply, val_main_v67_apply, val_main_v66_apply, val_main_v65_apply, val_main_v70_apply,
    val_main_v68_apply, val_main_cst_14_apply, val_main_cst_13_apply, val_v62_read, val_v64_read, Ideal.ofBits_def,
    Ideal.ofBits_one_f32]
  unfold outR Ideal.logistic
  simp only [Ideal.hostDivf_def, Ideal.addf_def, Ideal.hostUnary_exp_def, Ideal.hostNegf_def, Ideal.negf_def]

end Cert.RefValue

end
-- ==== Proof.lean ====
/-
  A two-layer graph convolution over 1000000 nodes and 33000000 edges (the given edges and one self-loop per node),
  followed by the logistic function, computed two ways.

  With `D n` the inverse square root of node `n`'s in-degree, the reference multiplies every edge message by
  `D (source) * D (target)`, transforms the features before gathering them, and adds the bias after the aggregation.
  The kernel program scales the features by `D` at their node BEFORE the gather, aggregates the two raw columns, and
  only then applies the first weight matrix, the bias, the rectifier and the second weight matrix in one dense
  node-wise stage, scaling by `D` again on the way out; a second dense stage applies the remaining `D`, the bias and
  the logistic function. For an edge landing on node `n` the target's factor is `D n`, constant over the sum, so the
  two arrangements agree by distributivity of a real factor over a finite sum of reals, once for each layer; every
  input is a real by the precondition and `D` is a real because a degree is a count.

  The two programs also read rows differently: the reference clamps an index into the table, the kernel program
  replaces a row whose index is outside the table. Under the precondition's range on the source ids every index is
  inside, so both read the same row.

  The frames are the generated ones (the reference's is its run with the result dropped); the ideal pass rewrote
  nothing, so the idealization claim is trivial.
-/
import proofs.«410824_j56633438765476_3_alg».proof.Defs
import proofs.«410824_j56633438765476_3_alg».proof.Proof.Gen.Kernel
import proofs.«410824_j56633438765476_3_alg».proof.Proof.Gen.Kernel.Frame
import proofs.«410824_j56633438765476_3_alg».proof.Proof.Gen.KernelIdeal
import proofs.«410824_j56633438765476_3_alg».proof.Proof.Gen.KernelIdeal.Frame
import proofs.«410824_j56633438765476_3_alg».proof.Proof.Gen.ReferenceIdeal
import proofs.«410824_j56633438765476_3_alg».proof.Proof.Gen.Pre_finite_inputs
import proofs.«410824_j56633438765476_3_alg».proof.Proof.KRun
import proofs.«410824_j56633438765476_3_alg».proof.Proof.KTerm
import proofs.«410824_j56633438765476_3_alg».proof.Proof.RefReadP
import proofs.«410824_j56633438765476_3_alg».proof.Proof.Edges
import proofs.«410824_j56633438765476_3_alg».proof.Proof.PreFacts
import proofs.«410824_j56633438765476_3_alg».proof.Proof.Bridge
import proofs.«410824_j56633438765476_3_alg».proof.Proof.KHost
import proofs.«410824_j56633438765476_3_alg».proof.Proof.KIdx
import proofs.«410824_j56633438765476_3_alg».proof.Proof.KFacts
import proofs.«410824_j56633438765476_3_alg».proof.Proof.RefValue

noncomputable section

namespace Cert.Proof

open Idealize.ShloMosaic Idealize.SL.Sem Idealize.ShloMosaic.StableHlo.Predicate Cert.Spec

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Every index of a one-column array is a node's. -/
theorem eq_ixP (i : (⟨2, ![1000000, 1]⟩ : Shape).Idx) : i = ixP (i 0) := by
  funext a
  match a with
  | ⟨0, _⟩ => rfl
  | ⟨1, h⟩ => exact Fin.ext (by have h1 : (i ⟨1, h⟩).val < 1 := (i ⟨1, h⟩).isLt; show (i ⟨1, h⟩).val = 0; omega)

/-- Both programs compute the normalisation by the same operations of the edge array. -/
theorem DR_eq_DK (a1 : IVec (⟨2, ![2, 32000000]⟩ : Shape) 32) : Cert.RefValue.DR a1 = Cert.KernelIdeal.Idx.DK a1 := by
  funext n
  show Cert.ReferenceIdeal.ReadP.val_main_v16 (F := Ideal) a1 _ = Cert.KernelIdeal.Term.dinvT a1 _
  exact congrFun (show Cert.ReferenceIdeal.ReadP.val_main_v16 (F := Ideal) a1 = Cert.KernelIdeal.Term.dinvT a1 from rfl) _

/-- At the ideal instance, from finite inputs with source ids in range, the two programs end with the same result:
    the kernel's result array is its host terms over the two dense stages, the reference's its composed term; read at
    a node they are the two arrangements of the normalised aggregation, equal over the reals by distributivity. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v31),
    Cert.KernelIdeal.RunOut.run_out m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5⟩ := hagree c
  obtain ⟨r0, r2, r3, r4, r5, rsrc⟩ := Cert.PreFacts.of_pre _ _ _ _ _ _ (hpre c)
  show Cert.ReferenceIdeal.RunP.res_main_v71 m' c = Cert.KernelIdeal.Gen.W9 (F := Ideal) m ρ c (Proc.devRef .tc Cert.KernelIdeal.main_v31)
  rw [Cert.KernelIdeal.Host.w9_out, Cert.ReferenceIdeal.ReadP.val_main_v71_eq, h0, h1, h2, h3, h4, h5]
  funext i
  obtain ⟨n, rfl⟩ : ∃ n : Fin 1000000, i = ixP n := ⟨i 0, eq_ixP i⟩
  refine (Cert.RefValue.val_out_eq _ _ _ _ _ _ n).trans ?_
  refine Eq.trans ?_ (Cert.KernelIdeal.Idx.outT_apply _ _ _ _ _ _ (Cert.KernelIdeal.Facts2.wrap_src_range _ rsrc) n).symm
  rw [DR_eq_DK]
  exact (Cert.Bridge.outK_eq_outR _ _ _ _ _ _ _ _ (fun n j => r0 _) (fun j k => r2 _) (fun k => r3 _) (fun k => r4 _)
    (fun n => Cert.KernelIdeal.Facts2.dinvT_isReal _ _) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
